-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1152 : Shape := ⟨3, ![8, 4096, 1152]⟩
abbrev S8x4096x2 : Shape := ⟨3, ![8, 4096, 2]⟩
abbrev S8x256 : Shape := ⟨2, ![8, 256]⟩
abbrev S_ : Shape := ⟨0, ![]⟩
abbrev S8x4096x1 : Shape := ⟨3, ![8, 4096, 1]⟩
abbrev S8x4096 : Shape := ⟨2, ![8, 4096]⟩
abbrev S8 : Shape := ⟨1, ![8]⟩
abbrev S8x1 : Shape := ⟨2, ![8, 1]⟩

class Facts : Prop where
  bcast_S_S8x4096x2 : S_.BroadcastsInDim S8x4096x2 (![] : Fin 0 → Fin S8x4096x2.rank)
  slices_S8x4096x2_S8x4096x1_0_0_0 : S8x4096x2.Slices ![0, 0, 0] S8x4096x1
  shapeCasts_S8x4096x1_S8x4096 : S8x4096x1.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  slices_S8x4096x2_S8x4096x1_0_0_1 : S8x4096x2.Slices ![0, 0, 1] S8x4096x1
  bcast_S8x1_S8x4096_0_1 : S8x1.BroadcastsInDim S8x4096 (![0, 1] : Fin 2 → Fin S8x4096.rank)
  bcast_S_S8x4096x1152 : S_.BroadcastsInDim S8x4096x1152 (![] : Fin 0 → Fin S8x4096x1152.rank)
  reducesTo_S8x4096x1152_S_d0_1_2 : S8x4096x1152.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn_part2 {F : FTy → Type} [FloatOps F] (main_arg0 : FVec F S8x4096x1152 .f32) (main_v38 : IVec S8x4096 32) : IVec S_ 1 :=
  let main_v39 : FVec F S8x4096x1152 .f32 := Host.absf main_arg0
  let main_cst : FVec F S_ .f32 := constant S_ .f32 0x7F800000#32
  let main_v40 : FVec F S8x4096x1152 .f32 := broadcastInDim S8x4096x1152 ![] bcast_S_S8x4096x1152 main_cst
  let main_v41 : IVec S8x4096x1152 1 := cmpf .olt main_v39 main_v40
  let main_c_8 : IVec S_ 1 := constantI S_ 1 1#1
  let main_v42 : IVec S_ 1 := (fun x v => Host.reduce IntOp.andi x v reducesTo_S8x4096x1152_S_d0_1_2 h_S_) main_v41 main_c_8
  let main_c_9 : IVec S_ 32 := constantI S_ 32 0#32
  let main_v43 : IVec S8x4096 32 := broadcastInDim S8x4096 ![] bcast_S_S8x4096 main_c_9
  let main_v44 : IVec S8x4096 1 := cmpi .sge main_v38 main_v43
  let main_c_10 : IVec S_ 1 := constantI S_ 1 1#1
  let main_v45 : IVec S_ 1 := (fun x v => Host.reduce IntOp.andi x v reducesTo_S8x4096_S_d0_1 h_S_) main_v44 main_c_10
  let main_v46 : IVec S_ 1 := andi main_v42 main_v45
  let main_c_11 : IVec S_ 32 := constantI S_ 32 256#32
  let main_v47 : IVec S8x4096 32 := broadcastInDim S8x4096 ![] bcast_S_S8x4096 main_c_11
  let main_v48 : IVec S8x4096 1 := cmpi .slt main_v38 main_v47
  let main_c_12 : IVec S_ 1 := constantI S_ 1 1#1
  let main_v49 : IVec S_ 1 := (fun x v => Host.reduce IntOp.andi x v reducesTo_S8x4096_S_d0_1 h_S_) main_v48 main_c_12
  let main_v50 : IVec S_ 1 := andi main_v46 main_v49
  main_v50

def fn_part1 {F : FTy → Type} [FloatOps F] (main_arg0 : FVec F S8x4096x1152 .f32) (main_v7 : IVec S8x1 32) (main_v9 : IVec S8x4096x2 32) (main_v16 : IVec S8x4096x2 1) (main_v17 : IVec S8x4096x2 32) : IVec S_ 1 :=
  let main_v18 : IVec S8x4096x2 32 := subi main_v9 main_v17
  let main_v19 : IVec S8x4096x2 32 := select main_v16 main_v18 main_v9
  let main_v20 : IVec S8x4096x1 32 := (extractStridedSlice S8x4096x1 ![0, 0, 0] · slices_S8x4096x2_S8x4096x1_0_0_0) main_v19
  let main_v21 : IVec S8x4096 32 := shapeCast S8x4096 main_v20 shapeCasts_S8x4096x1_S8x4096
  let main_c_5 : IVec S_ 32 := constantI S_ 32 4#32
  let main_v22 : IVec S8x1 32 := broadcastInDim S8x1 ![] bcast_S_S8x1 main_c_5
  let main_v23 : IVec S8x1 32 := Host.divsi main_v7 main_v22
  let main_v24 : IVec S8x1 32 := signi main_v7
  let main_v25 : IVec S8x1 32 := signi main_v22
  let main_v26 : IVec S8x1 1 := cmpi .ne main_v24 main_v25
  let main_v27 : IVec S8x1 32 := Host.remsi main_v7 main_v22
  let main_c_6 : IVec S_ 32 := constantI S_ 32 0#32
  let main_v28 : IVec S8x1 32 := broadcastInDim S8x1 ![] bcast_S_S8x1 main_c_6
  let main_v29 : IVec S8x1 1 := cmpi .ne main_v27 main_v28
  let main_v30 : IVec S8x1 1 := andi main_v26 main_v29
  let main_c_7 : IVec S_ 32 := constantI S_ 32 1#32
  let main_v31 : IVec S8x1 32 := broadcastInDim S8x1 ![] bcast_S_S8x1 main_c_7
  let main_v32 : IVec S8x1 32 := subi main_v23 main_v31
  let main_v33 : IVec S8x1 32 := select main_v30 main_v32 main_v23
  let main_v34 : IVec S8x4096x1 32 := (extractStridedSlice S8x4096x1 ![0, 0, 1] · slices_S8x4096x2_S8x4096x1_0_0_1) main_v19
  let main_v35 : IVec S8x4096 32 := shapeCast S8x4096 main_v34 shapeCasts_S8x4096x1_S8x4096
  let main_v36 : IVec S8x4096 32 := broadcastInDim S8x4096 ![0, 1] bcast_S8x1_S8x4096_0_1 main_v33
  let main_v37 : IVec S8x4096 32 := muli main_v36 main_v35
  let main_v38 : IVec S8x4096 32 := addi main_v21 main_v37
  fn_part2 (F := F) main_arg0 main_v38

def fn {F : FTy → Type} [FloatOps F] (main_arg0 : FVec F S8x4096x1152 .f32) (main_arg1 : IVec S8x4096x2 32) (main_arg2 : IVec S8x256 1) : IVec S_ 1 :=
  let main_c : IVec S_ 32 := constantI S_ 32 0#32
  let main_v0 : IVec S8x4096x2 32 := broadcastInDim S8x4096x2 ![] bcast_S_S8x4096x2 main_c
  let main_v1 : IVec S8x4096x2 32 := maxsi main_arg1 main_v0
  let main_v2 : IVec S8x4096x1 32 := (extractStridedSlice S8x4096x1 ![0, 0, 0] · slices_S8x4096x2_S8x4096x1_0_0_0) main_v1
  let main_v3 : IVec S8x4096 32 := shapeCast S8x4096 main_v2 shapeCasts_S8x4096x1_S8x4096
  let main_c_0 : IVec S_ 32 := constantI S_ 32 2147483648#32
  let main_v4 : IVec S8 32 := (fun x v => Host.reduce IntOp.maxsi x v reducesTo_S8x4096_S8_d1 h_S_) main_v3 main_c_0
  let main_v5 : IVec S8x1 32 := broadcastInDim S8x1 ![0] bcast_S8_S8x1_0 main_v4
  let main_c_1 : IVec S_ 32 := constantI S_ 32 1#32
  let main_v6 : IVec S8x1 32 := broadcastInDim S8x1 ![] bcast_S_S8x1 main_c_1
  let main_v7 : IVec S8x1 32 := addi main_v5 main_v6
  let main_c_2 : IVec S_ 32 := constantI S_ 32 4#32
  let main_v8 : IVec S8x4096x2 32 := broadcastInDim S8x4096x2 ![] bcast_S_S8x4096x2 main_c_2
  let main_v9 : IVec S8x4096x2 32 := Host.divsi main_v1 main_v8
  let main_v10 : IVec S8x4096x2 32 := signi main_v1
  let main_v11 : IVec S8x4096x2 32 := signi main_v8
  let main_v12 : IVec S8x4096x2 1 := cmpi .ne main_v10 main_v11
  let main_v13 : IVec S8x4096x2 32 := Host.remsi main_v1 main_v8
  let main_c_3 : IVec S_ 32 := constantI S_ 32 0#32
  let main_v14 : IVec S8x4096x2 32 := broadcastInDim S8x4096x2 ![] bcast_S_S8x4096x2 main_c_3
  let main_v15 : IVec S8x4096x2 1 := cmpi .ne main_v13 main_v14
  let main_v16 : IVec S8x4096x2 1 := andi main_v12 main_v15
  let main_c_4 : IVec S_ 32 := constantI S_ 32 1#32
  let main_v17 : IVec S8x4096x2 32 := broadcastInDim S8x4096x2 ![] bcast_S_S8x4096x2 main_c_4
  fn_part1 (F := F) main_arg0 main_v7 main_v9 main_v16 main_v17
-- ==== Kernel.lean ====
abbrev S8x4096x1152 : Shape := ⟨3, ![8, 4096, 1152]⟩
abbrev S8x4096x2 : Shape := ⟨3, ![8, 4096, 2]⟩
abbrev S8x256 : Shape := ⟨2, ![8, 256]⟩
abbrev S_ : Shape := ⟨0, ![]⟩
abbrev S8x4096x1 : Shape := ⟨3, ![8, 4096, 1]⟩
abbrev S8x4096 : Shape := ⟨2, ![8, 4096]⟩
abbrev S8 : Shape := ⟨1, ![8]⟩
abbrev S8x1 : Shape := ⟨2, ![8, 1]⟩
abbrev S8x256x1152 : Shape := ⟨3, ![8, 256, 1152]⟩
abbrev S8x256x128 : Shape := ⟨3, ![8, 256, 128]⟩
abbrev S8x2048 : Shape := ⟨2, ![8, 2048]⟩
abbrev S1x2048x1152 : Shape := ⟨3, ![1, 2048, 1152]⟩
abbrev S1x256x1152 : Shape := ⟨3, ![1, 256, 1152]⟩
abbrev S1x256x128 : Shape := ⟨3, ![1, 256, 128]⟩
abbrev S256x1152 : Shape := ⟨2, ![256, 1152]⟩
abbrev S256x128 : Shape := ⟨2, ![256, 128]⟩
abbrev S1x2048 : Shape := ⟨2, ![1, 2048]⟩
abbrev S2048 : Shape := ⟨1, ![2048]⟩
abbrev S256x2048 : Shape := ⟨2, ![256, 2048]⟩
abbrev S2048x1152 : Shape := ⟨2, ![2048, 1152]⟩
abbrev S256 : Shape := ⟨1, ![256]⟩
abbrev S256x1 : Shape := ⟨2, ![256, 1]⟩
abbrev S8x256x1 : Shape := ⟨3, ![8, 256, 1]⟩

abbrev nBuf : Space → Nat
  | .hbm => 72
  | .vmem => 10
  | .smem => 0
  | _ => 0

abbrev bufTy : (tb : Table) → Fin (tcTables nBuf tb) → BufTy
  | .hbm, ⟨0, _⟩ => ⟨S8x4096x1152, .f32⟩
  | .hbm, ⟨1, _⟩ => ⟨S8x4096x2, .i32⟩
  | .hbm, ⟨2, _⟩ => ⟨S8x256, .i1⟩
  | .hbm, ⟨3, _⟩ => ⟨S_, .i32⟩
  | .hbm, ⟨4, _⟩ => ⟨S8x4096x2, .i32⟩
  | .hbm, ⟨5, _⟩ => ⟨S8x4096x2, .i32⟩
  | .hbm, ⟨6, _⟩ => ⟨S8x4096x1, .i32⟩
  | .hbm, ⟨7, _⟩ => ⟨S8x4096, .i32⟩
  | .hbm, ⟨8, _⟩ => ⟨S_, .i32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S_, .i32⟩
  | .hbm, ⟨15, _⟩ => ⟨S_, .i32⟩
  | .hbm, ⟨16, _⟩ => ⟨S8x4096x2, .i32⟩
  | .hbm, ⟨17, _⟩ => ⟨S8x4096x2, .i32⟩
  | .hbm, ⟨18, _⟩ => ⟨S8x4096x2, .i32⟩
  | .hbm, ⟨19, _⟩ => ⟨S_, .i32⟩
  | .hbm, ⟨20, _⟩ => ⟨S8x4096x2, .i32⟩
  | .hbm, ⟨21, _⟩ => ⟨S8x4096x2, .i1⟩
  | .hbm, ⟨22, _⟩ => ⟨S8x4096x2, .i32⟩
  | .hbm, ⟨23, _⟩ => ⟨S8x4096x2, .i32⟩
  | .hbm, ⟨24, _⟩ => ⟨S_, .i32⟩
  | .hbm, ⟨25, _⟩ => ⟨S8x4096x2, .i32⟩
  | .hbm, ⟨26, _⟩ => ⟨S8x4096x2, .i1⟩
  | .hbm, ⟨27, _⟩ => ⟨S8x4096x2, .i1⟩
  | .hbm, ⟨28, _⟩ => ⟨S_, .i32⟩
  | .hbm, ⟨29, _⟩ => ⟨S8x4096x2, .i32⟩
  | .hbm, ⟨30, _⟩ => ⟨S8x4096x2, .i32⟩
  | .hbm, ⟨31, _⟩ => ⟨S8x4096x2, .i32⟩
  | .hbm, ⟨32, _⟩ => ⟨S8x4096x1, .i32⟩
  | .hbm, ⟨33, _⟩ => ⟨S8x4096, .i32⟩
  | .hbm, ⟨34, _⟩ => ⟨S_, .i32⟩
  | .hbm, ⟨35, _⟩ => ⟨S_, .i32⟩
  | .hbm, ⟨36, _⟩ => ⟨S8x1, .i32⟩
  | .hbm, ⟨37, _⟩ => ⟨S8x1, .i32⟩
  | .hbm, ⟨38, _⟩ => ⟨S8x1, .i32⟩
  | .hbm, ⟨39, _⟩ => ⟨S_, .i32⟩
  | .hbm, ⟨40, _⟩ => ⟨S8x1, .i32⟩
  | .hbm, ⟨41, _⟩ => ⟨S8x1, .i1⟩
  | .hbm, ⟨42, _⟩ => ⟨S8x1, .i32⟩
  | .hbm, ⟨43, _⟩ => ⟨S8x1, .i32⟩
  | .hbm, ⟨44, _⟩ => ⟨S_, .i32⟩
  | .hbm, ⟨45, _⟩ => ⟨S8x1, .i32⟩
  | .hbm, ⟨46, _⟩ => ⟨S8x1, .i1⟩
  | .hbm, ⟨47, _⟩ => ⟨S8x1, .i1⟩
  | .hbm, ⟨48, _⟩ => ⟨S_, .i32⟩
  | .hbm, ⟨49, _⟩ => ⟨S8x1, .i32⟩
  | .hbm, ⟨50, _⟩ => ⟨S8x1, .i32⟩
  | .hbm, ⟨51, _⟩ => ⟨S8x1, .i32⟩
  | .hbm, ⟨52, _⟩ => ⟨S8x4096x1, .i32⟩
  | .hbm, ⟨53, _⟩ => ⟨S8x4096, .i32⟩
  | .hbm, ⟨54, _⟩ => ⟨S8x4096, .i32⟩
  | .hbm, ⟨55, _⟩ => ⟨S8x4096, .i32⟩
  | .hbm, ⟨56, _⟩ => ⟨S8x4096, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S8x4096, .i32⟩
  | .hbm, ⟨61, _⟩ => ⟨S8x4096, .i32⟩
  | .hbm, ⟨62, _⟩ => ⟨S_, .i32⟩
  | .hbm, ⟨63, _⟩ => ⟨S8x4096, .i32⟩
  | .hbm, ⟨64, _⟩ => ⟨S8x4096, .i32⟩
  | .hbm, ⟨65, _⟩ => ⟨S8x256x1152, .f32⟩
  | .hbm, ⟨66, _⟩ => ⟨S8x256x128, .f32⟩
  | .hbm, ⟨67, _⟩ => ⟨S8x256x1, .f32⟩
  | .hbm, ⟨68, _⟩ => ⟨S8x256, .f32⟩
  | .hbm, ⟨69, _⟩ => ⟨S_, .f32⟩
  | .hbm, ⟨70, _⟩ => ⟨S8x256, .f32⟩
  | .hbm, ⟨71, _⟩ => ⟨S8x256, .i1⟩
  | .local _ .vmem, ⟨0, _⟩ => ⟨S8x2048, .i32⟩
  | .local _ .vmem, ⟨1, _⟩ => ⟨S8x2048, .i32⟩
  | .local _ .vmem, ⟨2, _⟩ => ⟨S1x2048x1152, .f32⟩
  | .local _ .vmem, ⟨3, _⟩ => ⟨S1x2048x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x256x128, .f32⟩
  | .local _ .vmem, ⟨7, _⟩ => ⟨S1x256x128, .f32⟩
  | .local _ .vmem, ⟨8, _⟩ => ⟨S256x1152, .f32⟩
  | .local _ .vmem, ⟨9, _⟩ => ⟨S256x128, .f32⟩
  | _, _ => ⟨S8x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_4 : Ref sig .tc := ⟨.hbm, 57, rfl⟩
abbrev main_c_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v17 : Ref sig .tc := ⟨.hbm, 64, rfl⟩
abbrev main_v18_0 : Ref sig .tc := ⟨.hbm, 65, rfl⟩
abbrev main_v18_1 : Ref sig .tc := ⟨.hbm, 66, rfl⟩
abbrev main_v19 : Ref sig .tc := ⟨.hbm, 67, rfl⟩
abbrev main_v20 : Ref sig .tc := ⟨.hbm, 68, rfl⟩
abbrev main_cst : Ref sig .tc := ⟨.hbm, 69, rfl⟩
abbrev main_v21 : Ref sig .tc := ⟨.hbm, 70, rfl⟩
abbrev main_v22 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8x4096x2 : S_.BroadcastsInDim S8x4096x2 (![] : Fin 0 → Fin S8x4096x2.rank)
  slices_S8x4096x2_S8x4096x1_0_0_0 : S8x4096x2.Slices ![0, 0, 0] S8x4096x1
  shapeCasts_S8x4096x1_S8x4096 : S8x4096x1.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  slices_S8x4096x2_S8x4096x1_0_0_1 : S8x4096x2.Slices ![0, 0, 1] S8x4096x1
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  inb_S256x1152_S256x1152_0_0 : ∀ a, (![0, 0] : Fin 2 → Nat) a + S256x1152.size a ≤ S256x1152.size a
  h_S256x1152 : 0 < S256x1152.numel
  shapeCasts_S256x1152_S256x1152 : S256x1152.ShapeCasts S256x1152
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S1x2048 : 0 < S1x2048.numel
  shapeCasts_S1x2048_S2048 : S1x2048.ShapeCasts S2048
  iota_S256x2048_d0_w32 : S256x2048.Iotas .tc 32 [0]
  shapeCasts_S2048_S1x2048 : S2048.ShapeCasts S1x2048
  broadcasts_S1x2048_S256x2048 : S1x2048.Broadcasts S256x2048
  inb_S1x2048x1152_S1x2048x1152_0_0_0 : ∀ a, (![0, 0, 0] : Fin 3 → Nat) a + S1x2048x1152.size a ≤ S1x2048x1152.size a
  h_S1x2048x1152 : 0 < S1x2048x1152.numel
  shapeCasts_S1x2048x1152_S2048x1152 : S1x2048x1152.ShapeCasts S2048x1152
  bitsLt_bf16_f32 : FTy.bits .bf16 < FTy.bits .f32
  natLt_1_32 : 1 < 32
  reduces_S256x2048_S256 : S256x2048.Reduces [1] S256
  shapeCasts_S256_S256x1 : S256.ShapeCasts S256x1
  shapeCasts_S256x1_S256x1 : S256x1.ShapeCasts S256x1
  broadcasts_S256x1_S256x128 : S256x1.Broadcasts S256x128
  inb_S1x256x1152_S1x256x1152_0_0_0 : ∀ a, (![0, 0, 0] : Fin 3 → Nat) a + S1x256x1152.size a ≤ S1x256x1152.size a
  h_S1x256x1152 : 0 < S1x256x1152.numel
  shapeCasts_S1x256x1152_S256x1152 : S1x256x1152.ShapeCasts S256x1152
  shapeCasts_S256x1152_S1x256x1152 : S256x1152.ShapeCasts S1x256x1152
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  slices_S8x256x128_S8x256x1_0_0_0 : S8x256x128.Slices ![0, 0, 0] S8x256x1
  shapeCasts_S8x256x1_S8x256 : S8x256x1.ShapeCasts S8x256
  bcast_S_S8x256 : S_.BroadcastsInDim S8x256 (![] : Fin 0 → Fin S8x256.rank)
  dot_S256x2048_S2048x1152_S256x1152_1_0_0_1_n_n_wf : DotDims.WF S256x2048 S2048x1152 S256x1152 [1] [0] [0] [1] [] []
  hrank0 : 0 < grid0.rank
  k0_off1_inb : ∀ i : grid0.Coords, ∀ a, (k0_off1 i) a + S1x2048.size a ≤ S8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S8x4096.size a
  hwx0_0 : ∀ i : grid0.Coords, EltTy.bits .i32 = 32 ∨ (Rect.block (s := S8x4096) S8x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1152.size a ≤ S8x4096x1152.size a
  hwx0_1 : ∀ i : grid0.Coords, EltTy.bits .f32 = 32 ∨ (Rect.block (s := S8x4096x1152) S1x2048x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1152.size a ≤ S8x256x1152.size a
  hwx0_2 : ∀ i : grid0.Coords, EltTy.bits .f32 = 32 ∨ (Rect.block (s := S8x256x1152) S1x256x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x256x128.size a
  hwx0_3 : ∀ i : grid0.Coords, EltTy.bits .f32 = 32 ∨ (Rect.block (s := S8x256x128) S1x256x128.size (cc0_transform_3 i) (hinb0_3 i)).WholeWords (EltTy.packing .f32)

variable [Facts₀]

def dot_S256x2048_S2048x1152_S256x1152_1_0_0_1_n_n : DotDims S256x2048 S2048x1152 S256x1152 where
  lhsContracting := [1]
  rhsContracting := [0]
  lhsNonContracting := [0]
  rhsNonContracting := [1]
  lhsBatch := []
  rhsBatch := []
  wf := dot_S256x2048_S2048x1152_S256x1152_1_0_0_1_n_n_wf

abbrev win0_0 : Pipeline.Window sig grid0 :=
  Pipeline.Window.ofSpec (Memref.whole main_v17) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_0) S1x256x1152.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_1) S1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x1152 : Shape := ⟨3, ![8, 4096, 1152]⟩
abbrev S8x4096x2 : Shape := ⟨3, ![8, 4096, 2]⟩
abbrev S8x256 : Shape := ⟨2, ![8, 256]⟩
abbrev S_ : Shape := ⟨0, ![]⟩
abbrev S8x4096x1 : Shape := ⟨3, ![8, 4096, 1]⟩
abbrev S8x4096 : Shape := ⟨2, ![8, 4096]⟩
abbrev S8 : Shape := ⟨1, ![8]⟩
abbrev S8x1 : Shape := ⟨2, ![8, 1]⟩
abbrev S32768 : Shape := ⟨1, ![32768]⟩
abbrev S32768x1152 : Shape := ⟨2, ![32768, 1152]⟩
abbrev S2048x1152 : Shape := ⟨2, ![2048, 1152]⟩
abbrev S32768x1 : Shape := ⟨2, ![32768, 1]⟩
abbrev S8x256x1152 : Shape := ⟨3, ![8, 256, 1152]⟩
abbrev S2048 : Shape := ⟨1, ![2048]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1152, .f32⟩
  | .hbm, ⟨1, _⟩ => ⟨S8x4096x2, .i32⟩
  | .hbm, ⟨2, _⟩ => ⟨S8x256, .i1⟩
  | .hbm, ⟨3, _⟩ => ⟨S_, .i32⟩
  | .hbm, ⟨4, _⟩ => ⟨S8x4096x2, .i32⟩
  | .hbm, ⟨5, _⟩ => ⟨S8x4096x2, .i32⟩
  | .hbm, ⟨6, _⟩ => ⟨S8x4096x1, .i32⟩
  | .hbm, ⟨7, _⟩ => ⟨S8x4096, .i32⟩
  | .hbm, ⟨8, _⟩ => ⟨S_, .i32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S_, .i32⟩
  | .hbm, ⟨15, _⟩ => ⟨S_, .i32⟩
  | .hbm, ⟨16, _⟩ => ⟨S8x4096x2, .i32⟩
  | .hbm, ⟨17, _⟩ => ⟨S8x4096x2, .i32⟩
  | .hbm, ⟨18, _⟩ => ⟨S8x4096x2, .i32⟩
  | .hbm, ⟨19, _⟩ => ⟨S_, .i32⟩
  | .hbm, ⟨20, _⟩ => ⟨S8x4096x2, .i32⟩
  | .hbm, ⟨21, _⟩ => ⟨S8x4096x2, .i1⟩
  | .hbm, ⟨22, _⟩ => ⟨S8x4096x2, .i32⟩
  | .hbm, ⟨23, _⟩ => ⟨S8x4096x2, .i32⟩
  | .hbm, ⟨24, _⟩ => ⟨S_, .i32⟩
  | .hbm, ⟨25, _⟩ => ⟨S8x4096x2, .i32⟩
  | .hbm, ⟨26, _⟩ => ⟨S8x4096x2, .i1⟩
  | .hbm, ⟨27, _⟩ => ⟨S8x4096x2, .i1⟩
  | .hbm, ⟨28, _⟩ => ⟨S_, .i32⟩
  | .hbm, ⟨29, _⟩ => ⟨S8x4096x2, .i32⟩
  | .hbm, ⟨30, _⟩ => ⟨S8x4096x2, .i32⟩
  | .hbm, ⟨31, _⟩ => ⟨S8x4096x2, .i32⟩
  | .hbm, ⟨32, _⟩ => ⟨S8x4096x1, .i32⟩
  | .hbm, ⟨33, _⟩ => ⟨S8x4096, .i32⟩
  | .hbm, ⟨34, _⟩ => ⟨S_, .i32⟩
  | .hbm, ⟨35, _⟩ => ⟨S_, .i32⟩
  | .hbm, ⟨36, _⟩ => ⟨S8x1, .i32⟩
  | .hbm, ⟨37, _⟩ => ⟨S8x1, .i32⟩
  | .hbm, ⟨38, _⟩ => ⟨S8x1, .i32⟩
  | .hbm, ⟨39, _⟩ => ⟨S_, .i32⟩
  | .hbm, ⟨40, _⟩ => ⟨S8x1, .i32⟩
  | .hbm, ⟨41, _⟩ => ⟨S8x1, .i1⟩
  | .hbm, ⟨42, _⟩ => ⟨S8x1, .i32⟩
  | .hbm, ⟨43, _⟩ => ⟨S8x1, .i32⟩
  | .hbm, ⟨44, _⟩ => ⟨S_, .i32⟩
  | .hbm, ⟨45, _⟩ => ⟨S8x1, .i32⟩
  | .hbm, ⟨46, _⟩ => ⟨S8x1, .i1⟩
  | .hbm, ⟨47, _⟩ => ⟨S8x1, .i1⟩
  | .hbm, ⟨48, _⟩ => ⟨S_, .i32⟩
  | .hbm, ⟨49, _⟩ => ⟨S8x1, .i32⟩
  | .hbm, ⟨50, _⟩ => ⟨S8x1, .i32⟩
  | .hbm, ⟨51, _⟩ => ⟨S8x1, .i32⟩
  | .hbm, ⟨52, _⟩ => ⟨S8x4096x1, .i32⟩
  | .hbm, ⟨53, _⟩ => ⟨S8x4096, .i32⟩
  | .hbm, ⟨54, _⟩ => ⟨S8x4096, .i32⟩
  | .hbm, ⟨55, _⟩ => ⟨S8x4096, .i32⟩
  | .hbm, ⟨56, _⟩ => ⟨S8x4096, .i32⟩
  | .hbm, ⟨57, _⟩ => ⟨S8, .i32⟩
  | .hbm, ⟨58, _⟩ => ⟨S8x1, .i32⟩
  | .hbm, ⟨59, _⟩ => ⟨S_, .i32⟩
  | .hbm, ⟨60, _⟩ => ⟨S8x1, .i32⟩
  | .hbm, ⟨61, _⟩ => ⟨S8x1, .i32⟩
  | .hbm, ⟨62, _⟩ => ⟨S8x4096, .i32⟩
  | .hbm, ⟨63, _⟩ => ⟨S8x4096, .i32⟩
  | .hbm, ⟨64, _⟩ => ⟨S32768, .i32⟩
  | .hbm, ⟨65, _⟩ => ⟨S32768x1152, .f32⟩
  | .hbm, ⟨66, _⟩ => ⟨S_, .f32⟩
  | .hbm, ⟨67, _⟩ => ⟨S2048x1152, .f32⟩
  | .hbm, ⟨68, _⟩ => ⟨S32768x1, .i32⟩
  | .hbm, ⟨69, _⟩ => ⟨S2048x1152, .f32⟩
  | .hbm, ⟨70, _⟩ => ⟨S8x256x1152, .f32⟩
  | .hbm, ⟨71, _⟩ => ⟨S_, .f32⟩
  | .hbm, ⟨72, _⟩ => ⟨S8x256x1152, .f32⟩
  | .hbm, ⟨73, _⟩ => ⟨S8x256x1152, .f32⟩
  | .hbm, ⟨74, _⟩ => ⟨S_, .i32⟩
  | .hbm, ⟨75, _⟩ => ⟨S32768, .i32⟩
  | .hbm, ⟨76, _⟩ => ⟨S_, .i32⟩
  | .hbm, ⟨77, _⟩ => ⟨S2048, .i32⟩
  | .hbm, ⟨78, _⟩ => ⟨S32768x1, .i32⟩
  | .hbm, ⟨79, _⟩ => ⟨S2048, .i32⟩
  | .hbm, ⟨80, _⟩ => ⟨S8x256, .i32⟩
  | .hbm, ⟨81, _⟩ => ⟨S_, .i32⟩
  | .hbm, ⟨82, _⟩ => ⟨S8x256, .i32⟩
  | .hbm, ⟨83, _⟩ => ⟨S8x256, .i1⟩
  | .hbm, ⟨84, _⟩ => ⟨S_, .f32⟩
  | .hbm, ⟨85, _⟩ => ⟨S8x256x1152, .f32⟩
  | .hbm, ⟨86, _⟩ => ⟨S8x256x1152, .f32⟩
  | _, _ => ⟨S8x4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_4 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_5 : Ref sig .tc := ⟨.hbm, 71, rfl⟩
abbrev main_v29 : Ref sig .tc := ⟨.hbm, 72, rfl⟩
abbrev main_v30 : Ref sig .tc := ⟨.hbm, 73, rfl⟩
abbrev main_c_6 : Ref sig .tc := ⟨.hbm, 74, rfl⟩
abbrev main_v31 : Ref sig .tc := ⟨.hbm, 75, rfl⟩
abbrev main_c_7 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_8 : Ref sig .tc := ⟨.hbm, 81, rfl⟩
abbrev main_v36 : Ref sig .tc := ⟨.hbm, 82, rfl⟩
abbrev main_v37 : Ref sig .tc := ⟨.hbm, 83, rfl⟩
abbrev main_cst_9 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]

class Facts₀ : Prop where
  bcast_S_S8x4096x2 : S_.BroadcastsInDim S8x4096x2 (![] : Fin 0 → Fin S8x4096x2.rank)
  slices_S8x4096x2_S8x4096x1_0_0_0 : S8x4096x2.Slices ![0, 0, 0] S8x4096x1
  shapeCasts_S8x4096x1_S8x4096 : S8x4096x1.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  slices_S8x4096x2_S8x4096x1_0_0_1 : S8x4096x2.Slices ![0, 0, 1] S8x4096x1
  bcast_S8x1_S8x4096_0_1 : S8x1.BroadcastsInDim S8x4096 (![0, 1] : Fin 2 → Fin S8x4096.rank)
  shapeCasts_S8x4096_S32768 : S8x4096.ShapeCasts S32768
  shapeCasts_S8x4096x1152_S32768x1152 : S8x4096x1152.ShapeCasts S32768x1152
  bcast_S_S2048x1152 : S_.BroadcastsInDim S2048x1152 (![] : Fin 0 → Fin S2048x1152.rank)
  bcast_S32768_S32768x1_0 : S32768.BroadcastsInDim S32768x1 (![0] : Fin 1 → Fin S32768x1.rank)
  shapeCasts_S2048x1152_S8x256x1152 : S2048x1152.ShapeCasts S8x256x1152
  bcast_S_S8x256x1152 : S_.BroadcastsInDim S8x256x1152 (![] : Fin 0 → Fin S8x256x1152.rank)
  bcast_S_S32768 : S_.BroadcastsInDim S32768 (![] : Fin 0 → Fin S32768.rank)
  bcast_S_S2048 : S_.BroadcastsInDim S2048 (![] : Fin 0 → Fin S2048.rank)
  shapeCasts_S2048_S8x256 : S2048.ShapeCasts S8x256
  bcast_S_S8x256 : S_.BroadcastsInDim S8x256 (![] : Fin 0 → Fin S8x256.rank)
  scatter_S2048x1152_S32768x1_S32768x1152_1_0_0_1_wf : ScatterDims.WF S2048x1152 S32768x1 S32768x1152 [1] [0] [0] 1
  scatter_S2048_S32768x1_S32768_n_0_0_1_wf : ScatterDims.WF S2048 S32768x1 S32768 [] [0] [0] 1

variable [Facts₀]

def scatter_S2048x1152_S32768x1_S32768x1152_1_0_0_1 : ScatterDims S2048x1152 S32768x1 S32768x1152 where
  updateWindowDims := [1]
  insertedWindowDims := [0]
  scatterDimsToOperandDims := [0]
  indexVectorDim := 1
  wf := scatter_S2048x1152_S32768x1_S32768x1152_1_0_0_1_wf
def scatter_S2048_S32768x1_S32768_n_0_0_1 : ScatterDims S2048 S32768x1 S32768 where
  updateWindowDims := []
  insertedWindowDims := [0]
  scatterDimsToOperandDims := [0]
  indexVectorDim := 1
  wf := scatter_S2048_S32768x1_S32768_n_0_0_1_wf

class Facts : Prop extends Facts₀ where

variable [Facts]
-- ==== Proof.Spec.lean ====
/-
  The mathematics both programs compute, stated once over the argument arrays.

  A patch `(b, s)` carries a segment id `segIds p (b, s)`: with the patch coordinates clamped at zero, `x ⌊/⌋ 4 + ((max_s x) + 1) ⌊/⌋ 4 · (y ⌊/⌋ 4)`
  in 32-bit words, the floor division spelt through the truncated quotient (less one where the signs differ and the
  remainder is not zero). Row `l` of batch `b` of the pooled result is the sum of the hidden rows of the patches of batch `b` whose
  id is `l`, scaled; the mask says whether any patch of the batch has that id.
-/
import Idealize.ShloMosaic.PureOps
import Idealize.ShloMosaic.PureOps.Ideal
import Idealize.ShloMosaic.Lib.ValueIdx

noncomputable section

namespace Cert.Pool

open Idealize.ShloMosaic Idealize.ShloMosaic.ValueIdx

abbrev S_ : Shape := ⟨0, ![]⟩
abbrev S8 : Shape := ⟨1, ![8]⟩
abbrev S8x1 : Shape := ⟨2, ![8, 1]⟩
abbrev S8x4096 : Shape := ⟨2, ![8, 4096]⟩
abbrev S8x4096x1 : Shape := ⟨3, ![8, 4096, 1]⟩
abbrev S8x4096x2 : Shape := ⟨3, ![8, 4096, 2]⟩
abbrev S8x4096x1152 : Shape := ⟨3, ![8, 4096, 1152]⟩
abbrev S8x256 : Shape := ⟨2, ![8, 256]⟩
abbrev S8x256x1152 : Shape := ⟨3, ![8, 256, 1152]⟩
abbrev S8x256x128 : Shape := ⟨3, ![8, 256, 128]⟩
abbrev S8x256x1 : Shape := ⟨3, ![8, 256, 1]⟩
abbrev S32768 : Shape := ⟨1, ![32768]⟩
abbrev S32768x1 : Shape := ⟨2, ![32768, 1]⟩
abbrev S32768x1152 : Shape := ⟨2, ![32768, 1152]⟩
abbrev S2048 : Shape := ⟨1, ![2048]⟩
abbrev S2048x1152 : Shape := ⟨2, ![2048, 1152]⟩

/-- `x ⌊/⌋ 4` on an array of 32-bit words, rounding toward minus infinity: the truncated quotient, less one where the
    operands' signs differ and the remainder is not zero. -/
def floorDiv4 (s : Shape) (hb : S_.BroadcastsInDim s (![] : Fin 0 → Fin s.rank)) (x : IVec s 32) : IVec s 32 :=
  let four : IVec S_ 32 := id (constantI S_ 32 4#32)
  let q : IVec s 32 := Host.divsi x (broadcastInDim s ![] hb four)
  let differ : IVec s 1 := cmpi .ne (signi x) (broadcastInDim s ![] hb (signi four))
  let inexact : IVec s 1 := cmpi .ne (Host.remsi x (broadcastInDim s ![] hb four)) (broadcastInDim s ![] hb (constantI S_ 32 0#32))
  select (andi differ inexact) (subi q (broadcastInDim s ![] hb (constantI S_ 32 1#32))) q

/-- The patch coordinates clamped at zero. -/
def clamped (p : IVec S8x4096x2 32) : IVec S8x4096x2 32 :=
  maxsi p (broadcastInDim S8x4096x2 ![] (by decide) (constantI S_ 32 0#32))

/-- One more than the largest clamped x coordinate of each batch. -/
def maxX (p : IVec S8x4096x2 32) : IVec S8x1 32 :=
  addi (broadcastInDim S8x1 ![0] (by decide)
      (Host.reduce IntOp.maxsi (shapeCast S8x4096 (extractStridedSlice S8x4096x1 ![0, 0, 0] (clamped p) (by decide)) (by decide))
        (constantI S_ 32 2147483648#32) (by decide : S8x4096.ReducesTo [1] S8) (by decide : 0 < S_.numel)))
    (broadcastInDim S8x1 ![] (by decide) (constantI S_ 32 1#32))

/-- The segment id of every patch: `x ⌊/⌋ 4 + (maxX ⌊/⌋ 4) · (y ⌊/⌋ 4)`, in 32-bit words. -/
def segIds (p : IVec S8x4096x2 32) : IVec S8x4096 32 :=
  addi (shapeCast S8x4096 (extractStridedSlice S8x4096x1 ![0, 0, 0] (floorDiv4 S8x4096x2 (by decide) (clamped p)) (by decide)) (by decide))
    (muli (broadcastInDim S8x4096 ![0, 1] (by decide) (floorDiv4 S8x1 (by decide) (maxX p)))
      (shapeCast S8x4096 (extractStridedSlice S8x4096x1 ![0, 0, 1] (floorDiv4 S8x4096x2 (by decide) (clamped p)) (by decide)) (by decide)))

/-- Every segment id lies in its batch's range `[0, 256)`. -/
def InRange (J : IVec S8x4096 32) : Prop := ∀ i : S8x4096.Idx, 0 ≤ (J i).toInt ∧ (J i).toInt < 256

/-- The sum of the hidden rows of batch `b`'s patches with segment id `l`, at column `h`. -/
def segSum (x : S8x4096x1152.Idx → EReal) (J : IVec S8x4096 32) (b : Fin 8) (l : Fin 256) (h : Fin 1152) : EReal :=
  ∑ s : Fin 4096, if J (ix2 b s) = BitVec.ofNat 32 l.val then x (ix3 b s h) else 0

/-- The kernel's pooled array: the segment sums times its one scale `√1152 / 16` (as an f32 word). -/
def pooledK (x : S8x4096x1152.Idx → EReal) (J : IVec S8x4096 32) : S8x256x1152.Idx → EReal :=
  fun i => segSum x J (i 0) (i 1) (i 2) * Ideal.ofBits .f32 0x4007C3B6#32

/-- The reference's pooled array: the segment sums divided by 16, then times `√1152` (as an f32 word). -/
def pooledR (x : S8x4096x1152.Idx → EReal) (J : IVec S8x4096 32) : S8x256x1152.Idx → EReal :=
  fun i => Ideal.div (segSum x J (i 0) (i 1) (i 2)) (Ideal.ofBits .f32 0x41800000#32) * Ideal.ofBits .f32 0x4207C3B6#32

/-- The mask: whether some patch of the batch has the segment id. -/
def maskOf (J : IVec S8x4096 32) : IVec S8x256 1 :=
  fun i => if ∃ s : Fin 4096, J (ix2 (i 0) s) = BitVec.ofNat 32 (i 1).val then 1#1 else 0#1

/-- The kernel's second output: how many patches of the batch have the segment id, repeated along 128 lanes. -/
def countsK (J : IVec S8x4096 32) : S8x256x128.Idx → EReal :=
  fun i => ∑ s : Fin 4096, if J (ix2 (i 0) s) = BitVec.ofNat 32 (i 1).val then (1 : EReal) else 0

variable {F : FTy → Type} [FloatOps F]

/-- The kernel program's last host lines: lane 0 of the counts, compared with zero. -/
def maskTerm (cnt : FVec F S8x256x128 .f32) : IVec S8x256 1 :=
  cmpf .ogt (shapeCast S8x256 (extractStridedSlice S8x256x1 ![0, 0, 0] cnt (by decide)) (by decide))
    (broadcastInDim S8x256 ![] (by decide) (constant (F := F) S_ .f32 0x00000000#32))

/-- The reference's flat segment number of every patch, as its scatters read it: `J + 256 · b` in 32-bit words, laid out as
    one column of 32768 rows. -/
def refSeg (J : IVec S8x4096 32) : IVec S32768x1 32 :=
  broadcastInDim S32768x1 ![0] (by decide)
    (shapeCast S32768
      (addi J (broadcastInDim S8x4096 ![0, 1] (by decide)
        (muli (broadcastInDim S8x1 ![] (by decide) (constantI S_ 32 256#32))
          (broadcastInDim S8x1 ![0] (by decide) (iotaInDim S8 32 0)))))
      (by decide))

/-- The dimension numbers of the reference's row scatter (rows of 1152 floats added at a row index). -/
def rowScatter : ScatterDims S2048x1152 S32768x1 S32768x1152 where
  updateWindowDims := [1]
  insertedWindowDims := [0]
  scatterDimsToOperandDims := [0]
  indexVectorDim := 1
  wf := by decide

/-- The dimension numbers of the reference's scalar scatter (ones added at an index). -/
def cellScatter : ScatterDims S2048 S32768x1 S32768 where
  updateWindowDims := []
  insertedWindowDims := [0]
  scatterDimsToOperandDims := [0]
  indexVectorDim := 1
  wf := by decide

/-- The reference's pooled result as its host lines compute it: the hidden rows scatter-added at their flat segment numbers
    into 2048 zero rows, laid out per batch, divided by 16, times `√1152`. -/
def refPooled (x : FVec F S8x4096x1152 .f32) (J : IVec S8x4096 32) : FVec F S8x256x1152 .f32 :=
  mulf
    (Host.divf
      (shapeCast S8x256x1152
        (Host.scatterAdd rowScatter (broadcastInDim S2048x1152 ![] (by decide) (constant (F := F) S_ .f32 0x00000000#32)) (refSeg J)
          (shapeCast S32768x1152 x (by decide)))
        (by decide))
      (broadcastInDim S8x256x1152 ![] (by decide) (constant (F := F) S_ .f32 0x41800000#32)))
    (broadcastInDim S8x256x1152 ![] (by decide) (constant (F := F) S_ .f32 0x4207C3B6#32))

/-- The reference's mask as its host lines compute it: ones scatter-added at the flat segment numbers into 2048 zero words,
    laid out per batch, compared with zero. -/
def refMask (J : IVec S8x4096 32) : IVec S8x256 1 :=
  cmpi .sgt
    (shapeCast S8x256
      (Host.scatter cellScatter IntOp.addi (broadcastInDim S2048 ![] (by decide) (constantI S_ 32 0#32)) (refSeg J)
        (broadcastInDim S32768 ![] (by decide) (constantI S_ 32 1#32)))
      (by decide))
    (broadcastInDim S8x256 ![] (by decide) (constantI S_ 32 0#32))

end Cert.Pool

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.KPayload.lean ====
/-
  The pooling kernel's arithmetic, one store's value at a time, read entry by entry over the extended reals.

  The body compares the row numbers `0 … 255` (an iota along axis 0) with the block's 2048 segment ids (broadcast along axis 0):
  entry `(l, k)` of the comparison is set when patch `k` has id `l`. Turned into a float it is `1` or `0`. The matrix product of
  that 256 × 2048 matrix with the 2048 × 1152 hidden rows is, entry by entry, the plain sum over `k`; its row sums are the counts
  (changes of float format are the identity over the extended reals).
-/
import proofs.«425512_j57775900066507_3_alg».proof.Proof.Gen.KernelIdeal.Skeleton
import proofs.«425512_j57775900066507_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolPayload

open Idealize.ShloMosaic Idealize.ShloMosaic.TcCoe Idealize.ShloMosaic.ValueIdx
open Cert.KernelIdeal Cert.KernelIdeal.Gen

/-- The weight of patch `k` of the loaded id row in row `l`: one when its id is `l`, zero otherwise. -/
def wt (v4 : Vec Ideal S1x2048 .i32) (l : Fin 256) (k : Fin 2048) : EReal :=
  if v4 (ix2 (0 : Fin 1) k) = BitVec.ofNat 32 l.val then 1 else 0

/-- The reset value of the accumulator is zero. -/
theorem pay1_apply (l : Fin 256) (h : Fin 1152) : k0_pay1 (F := Ideal) (ix2 l h) = 0 := by
  unfold k0_pay1
  rw [shapeCast_self, broadcast_apply]
  exact Ideal.ofBits_zero_f32

/-- The reset value of the counter is zero. -/
theorem pay2_apply (l : Fin 256) (n : Fin 128) : k0_pay2 (F := Ideal) (ix2 l n) = 0 := by
  unfold k0_pay2
  rw [shapeCast_self, broadcast_apply]
  exact Ideal.ofBits_zero_f32

/-- A comparison for equality widened to a 32-bit word and read as a signed integer is one when the words agree, zero otherwise. -/
theorem sitofp_eq_word (a b : BitVec 32) :
    (FloatOps.sitofp (F := Ideal) .f32 ((IntOp.cmpi .eq a b).setWidth 32) : EReal) = if b = a then 1 else 0 := by
  show (((((IntOp.cmpi .eq a b).setWidth 32).toInt : ℤ) : ℝ) : EReal) = _
  by_cases h : b = a
  · subst h
    rw [if_pos rfl]
    have h1 : IntOp.cmpi .eq b b = 1#1 := by simp [IntOp.cmpi]
    rw [h1]
    have h2 : ((1#1 : BitVec 1).setWidth 32).toInt = 1 := by decide
    rw [h2]
    simp
  · rw [if_neg h]
    have h1 : IntOp.cmpi .eq a b = 0#1 := by
      have hne : (a == b) = false := beq_eq_false_iff_ne.mpr fun e => h e.symm
      show BitVec.ofBool (a == b) = 0#1
      rw [hne]
      rfl
    rw [h1]
    have h2 : ((0#1 : BitVec 1).setWidth 32).toInt = 0 := by decide
    rw [h2]
    simp

/-- The float weight the body forms from the comparison, at `(l, k)`: one when patch `k` has id `l`, zero otherwise. -/
theorem weight_apply (v4 : Vec Ideal S1x2048 .i32) (l : Fin 256) (k : Fin 2048) :
    (sitofp .f32 (extui 32 (k0_pay3 (F := Ideal) v4) natLt_1_32) : FVec Ideal S256x2048 .f32) (ix2 l k) = wt v4 l k := by
  rw [sitofp_apply, extui_apply]
  unfold k0_pay3
  show FloatOps.sitofp .f32 ((IntOp.cmpi .eq (iota .tc S256x2048 32 [0] iota_S256x2048_d0_w32 (ix2 l k))
    (broadcastTo S256x2048 (shapeCast S1x2048 (shapeCast S2048 v4 shapeCasts_S1x2048_S2048) shapeCasts_S2048_S1x2048)
      broadcasts_S1x2048_S256x2048 (ix2 l k))).setWidth 32) = _
  rw [shapeCast_shapeCast, iota_single_apply, broadcastTo_1b_ab_apply, sitofp_eq_word]
  rfl

/-- On the left operand's row axis the product's index is the output's row … -/
theorem lhs_dot_S256x2048_S2048x1152_S256x1152_1_0_0_1_n_n_0 (j : S256x1152.Idx) (k : dot_S256x2048_S2048x1152_S256x1152_1_0_0_1_n_n.contr.Idx) :
    (dot_S256x2048_S2048x1152_S256x1152_1_0_0_1_n_n.lhsIdx j k 0 : ℕ) = j 0 := by
  unfold DotDims.lhsIdx
  rw [dif_neg (show ¬(0 : Fin S256x2048.rank) ∈ dot_S256x2048_S2048x1152_S256x1152_1_0_0_1_n_n.lhsBatch by decide),
    dif_pos (show (0 : Fin S256x2048.rank) ∈ dot_S256x2048_S2048x1152_S256x1152_1_0_0_1_n_n.lhsNonContracting by decide)]
  rfl

/-- … on its column axis the contraction's one coordinate. -/
theorem lhs_dot_S256x2048_S2048x1152_S256x1152_1_0_0_1_n_n_1 (j : S256x1152.Idx) (k : dot_S256x2048_S2048x1152_S256x1152_1_0_0_1_n_n.contr.Idx) :
    (dot_S256x2048_S2048x1152_S256x1152_1_0_0_1_n_n.lhsIdx j k 1 : ℕ) = k ⟨0, by decide⟩ :=
  dot_S256x2048_S2048x1152_S256x1152_1_0_0_1_n_n.lhsIdx_val_of_single (cl := 1) rfl j k

/-- On the right operand's row axis the product's index is the contraction's one coordinate … -/
theorem rhs_dot_S256x2048_S2048x1152_S256x1152_1_0_0_1_n_n_0 (j : S256x1152.Idx) (k : dot_S256x2048_S2048x1152_S256x1152_1_0_0_1_n_n.contr.Idx) :
    (dot_S256x2048_S2048x1152_S256x1152_1_0_0_1_n_n.rhsIdx j k 0 : ℕ) = k ⟨0, by decide⟩ :=
  dot_S256x2048_S2048x1152_S256x1152_1_0_0_1_n_n.rhsIdx_val_of_single (cr := 0) rfl j k

/-- … on its column axis the output's column. -/
theorem rhs_dot_S256x2048_S2048x1152_S256x1152_1_0_0_1_n_n_1 (j : S256x1152.Idx) (k : dot_S256x2048_S2048x1152_S256x1152_1_0_0_1_n_n.contr.Idx) :
    (dot_S256x2048_S2048x1152_S256x1152_1_0_0_1_n_n.rhsIdx j k 1 : ℕ) = j 1 := by
  unfold DotDims.rhsIdx
  rw [dif_neg (show ¬(1 : Fin S2048x1152.rank) ∈ dot_S256x2048_S2048x1152_S256x1152_1_0_0_1_n_n.rhsBatch by decide),
    dif_pos (show (1 : Fin S2048x1152.rank) ∈ dot_S256x2048_S2048x1152_S256x1152_1_0_0_1_n_n.rhsNonContracting by decide)]
  rfl

/-- The accumulator's update: what it held plus the weighted sum of the block's hidden rows. -/
theorem pay4_apply (v4 : Vec Ideal S1x2048 .i32) (v10 : Vec Ideal S1x2048x1152 .f32) (v17 : Vec Ideal S256x1152 .f32)
    (l : Fin 256) (h : Fin 1152) :
    k0_pay4 (F := Ideal) v4 v10 v17 (ix2 l h) = v17 (ix2 l h) + ∑ k : Fin 2048, wt v4 l k * v10 (ix3 (0 : Fin 1) k h) := by
  unfold k0_pay4
  rw [shapeCast_self, addf_apply]
  refine congrArg (v17 (ix2 l h) + ·) ?_
  refine (Ideal.matmul_constant_zero_apply dot_S256x2048_S2048x1152_S256x1152_1_0_0_1_n_n none _ _ (ix2 l h)).trans ?_
  rw [← Equiv.sum_comp (contrEquiv1 dot_S256x2048_S2048x1152_S256x1152_1_0_0_1_n_n 2048 rfl rfl).symm]
  refine Finset.sum_congr rfl fun k _ => ?_
  have hl : dot_S256x2048_S2048x1152_S256x1152_1_0_0_1_n_n.lhsIdx (ix2 l h) ((contrEquiv1 dot_S256x2048_S2048x1152_S256x1152_1_0_0_1_n_n 2048 rfl rfl).symm k) = ix2 l k :=
    Shape.idx_ext₂ (lhs_dot_S256x2048_S2048x1152_S256x1152_1_0_0_1_n_n_0 _ _)
      ((lhs_dot_S256x2048_S2048x1152_S256x1152_1_0_0_1_n_n_1 _ _).trans (contrEquiv1_symm_val _ 2048 rfl rfl k))
  have hr : dot_S256x2048_S2048x1152_S256x1152_1_0_0_1_n_n.rhsIdx (ix2 l h) ((contrEquiv1 dot_S256x2048_S2048x1152_S256x1152_1_0_0_1_n_n 2048 rfl rfl).symm k) = ix2 k h :=
    Shape.idx_ext₂ ((rhs_dot_S256x2048_S2048x1152_S256x1152_1_0_0_1_n_n_0 _ _).trans (contrEquiv1_symm_val _ 2048 rfl rfl k))
      (rhs_dot_S256x2048_S2048x1152_S256x1152_1_0_0_1_n_n_1 _ _)
  rw [hl, hr, truncf_apply, truncf_apply, weight_apply, shapeCast_1ab_ab_apply]

/-- The counter's update: what it held plus the number of the block's patches in the row, on every lane. -/
theorem pay5_apply (v4 : Vec Ideal S1x2048 .i32) (v26 : Vec Ideal S256x128 .f32) (l : Fin 256) (n : Fin 128) :
    k0_pay5 (F := Ideal) v4 v26 (ix2 l n) = v26 (ix2 l n) + ∑ k : Fin 2048, wt v4 l k := by
  unfold k0_pay5
  rw [shapeCast_self, addf_apply, shapeCast_self]
  refine congrArg (v26 (ix2 l n) + ·) ?_
  refine (Keepdims.keepdims_apply _ shapeCasts_S256_S256x1 broadcasts_S256x1_S256x128 l n).trans ?_
  refine (Ideal.multiReduction_add_single _ 0x00000000#32 reduces_S256x2048_S256 (.inl rfl) rfl (ix1 l)).trans ?_
  refine Finset.sum_congr rfl fun k _ => ?_
  rw [Keepdims.lift_row]
  exact weight_apply v4 l _

/-- The pooled block written out: the accumulator times the scale. -/
theorem pay6_apply (v36 : Vec Ideal S256x1152 .f32) (l : Fin 256) (h : Fin 1152) :
    k0_pay6 (F := Ideal) v36 (ix3 (0 : Fin 1) l h) = v36 (ix2 l h) * Ideal.ofBits .f32 0x4007C3B6#32 := by
  unfold k0_pay6
  rw [shapeCast_ab_1ab_apply, mulf_apply, broadcast_apply]
  rfl

/-- The counts block written out: the counter. -/
theorem pay7_apply (v42 : Vec Ideal S256x128 .f32) (l : Fin 256) (n : Fin 128) :
    k0_pay7 (F := Ideal) v42 (ix3 (0 : Fin 1) l n) = v42 (ix2 l n) := by
  unfold k0_pay7
  exact shapeCast_ab_1ab_apply _ _ _ _ _

end Cert.KernelIdeal.PoolPayload

end
-- ==== Proof.KPieces.lean ====
/-
  What one grid point of the pooling kernel leaves behind, read entry by entry over the extended reals.

  At a point of batch `b` the body compares the 2048 segment ids of its block with the row numbers `0 … 255`: patch `k` weighs
  `1` in row `l` when its id is `l` and `0` otherwise. It adds to the carried accumulator the product of that 0/1 matrix with the
  block's 2048 hidden rows, and to the carried counter the row sums of the 0/1 matrix; at the first point of a batch both start
  from zero, at the last the accumulator times the scale and the counter are written out.
-/
import proofs.«425512_j57775900066507_3_alg».proof.Proof.Gen.KernelIdeal.Frame
import proofs.«425512_j57775900066507_3_alg».proof.Proof.Spec
import proofs.«425512_j57775900066507_3_alg».proof.Proof.KPayload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.PoolPieces

open Idealize.ShloMosaic Idealize.ShloMosaic.TcCoe Idealize.SL.Sem Idealize.ShloMosaic.ValueIdx
open Cert.KernelIdeal Cert.KernelIdeal.Gen

/-- The batch a grid point works on: its first coordinate. -/
def gb (i : grid0.Coords) : Fin 8 := i 0

/-- The weight of patch `k` of the block in row `l`: one when the patch's segment id is `l`, zero otherwise. -/
def wt (x0 : Vec Ideal S8x2048 .i32) (i : grid0.Coords) (l : Fin 256) (k : Fin 2048) : EReal :=
  if x0 (ix2 (gb i) k) = BitVec.ofNat 32 l.val then 1 else 0

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The one row of the 8 x 2048 id block a grid point loads: row `i 0`, as a 1 x 2048 block. -/
def row (i : grid0.Coords) (x0 : Vec F S8x2048 .i32) : Vec F S1x2048 .i32 :=
  View.ld x0 (Rect.unit (s := S8x2048) (k0_off1 i) S1x2048.size (k0_off1_inb i))

/-- Entry `k` of the loaded row is entry `(i 0, k)` of the id block: the rectangle starts at row `i 0`, column 0, with unit strides. -/
theorem row_apply (i : grid0.Coords) (x0 : Vec F S8x2048 .i32) (k : Fin 2048) :
    row i x0 (ix2 (0 : Fin 1) k) = x0 (ix2 (gb i) k) := by
  unfold row
  show x0 (LoadRect.idx _ _) = x0 _
  congr 1
  funext a
  apply Fin.ext
  rw [LoadRect.idx_apply]
  have e0 : k0_off1 i 0 = (i 0).val := by rw [k0_off1_eq]; rfl
  have e1 : k0_off1 i 1 = 0 := by rw [k0_off1_eq]; rfl
  match a with
  | ⟨0, _⟩ => show k0_off1 i 0 + 1 * 0 = (i 0).val; rw [e0]; omega
  | ⟨1, _⟩ => show k0_off1 i 1 + 1 * k.val = k.val; rw [e1]; omega

/-- Last point of a batch: the accumulator is left at its one covering store's payload. -/
theorem pieceB0 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec F S8x2048 .i32) (x1 : Vec F S1x2048x1152 .f32) (xs0 : Vec F S256x1152 .f32) (xs1 : Vec F S256x128 .f32) :
    sout0_B_0 c i a2 h2 a3 h3 a4 h4 a5 h5 a6 h6 a7 h7 hc0 hc1 x0 x1 xs0 xs1 = k0_pay4 (row i x0) x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread,
    View.ld_unit_zero (S := S1x2048x1152) hz3, View.ld_unit_zero (S := S256x1152) hz2]
  rfl

/-- Last point of a batch: the counter is left at its one covering store's payload. -/
theorem pieceB1 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec F S8x2048 .i32) (x1 : Vec F S1x2048x1152 .f32) (xs0 : Vec F S256x1152 .f32) (xs1 : Vec F S256x128 .f32) :
    sout0_B_1 c i a2 h2 a3 h3 a4 h4 a5 h5 a6 h6 a7 h7 hc0 hc1 x0 x1 xs0 xs1 = k0_pay5 (row i x0) xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h7.read_unread, View.ld_unit_zero (S := S256x128) hz2]
  rfl

/-- Last point of a batch: the pooled block's staging buffer is left at the scaled updated accumulator. -/
theorem pieceB2 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec F S8x2048 .i32) (x1 : Vec F S1x2048x1152 .f32) (xs0 : Vec F S256x1152 .f32) (xs1 : Vec F S256x128 .f32) :
    out0_B_2 c i a2 h2 a3 h3 a4 h4 a5 h5 a6 h6 a7 h7 hc0 hc1 x0 x1 xs0 xs1 = k0_pay6 (k0_pay4 (row i x0) x1 xs0) := by
  unfold out0_B_2
  rw [View.read_writes_eq_canon _ _ _ (cover0_B_2 c i a2 h2 a3 h3 a4 h4 a5 h5 a6 h6 a7 h7 hc0 hc1 x0 x1 xs0 xs1)]
  unfold kernelRun0_B
  dsimp only
  sl_unfold_words
  rw [View.canon_unit_zero hz3, View.readCov_unit_zero (S := S256x1152) _ hz2]
  simp only [View.readAt_eq_ld, h2.read_unread, h3.read_unread, h6.read_unread,
    View.ld_unit_zero (S := S1x2048x1152) hz3, View.ld_unit_zero (S := S256x1152) hz2]
  rfl

/-- Last point of a batch: the counts block's staging buffer is left at the updated counter. -/
theorem pieceB3 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec F S8x2048 .i32) (x1 : Vec F S1x2048x1152 .f32) (xs0 : Vec F S256x1152 .f32) (xs1 : Vec F S256x128 .f32) :
    out0_B_3 c i a2 h2 a3 h3 a4 h4 a5 h5 a6 h6 a7 h7 hc0 hc1 x0 x1 xs0 xs1 = k0_pay7 (k0_pay5 (row i x0) xs1) := by
  unfold out0_B_3
  rw [View.read_writes_eq_canon _ _ _ (cover0_B_3 c i a2 h2 a3 h3 a4 h4 a5 h5 a6 h6 a7 h7 hc0 hc1 x0 x1 xs0 xs1)]
  unfold kernelRun0_B
  dsimp only
  sl_unfold_words
  rw [View.canon_unit_zero hz3, View.readCov_unit_zero (S := S256x128) _ hz2]
  simp only [View.readAt_eq_ld, h2.read_unread, h7.read_unread, View.ld_unit_zero (S := S256x128) hz2]
  rfl

/-- First point of a batch: the accumulator is reset, read back, and left at the update of the reset value. -/
theorem pieceA0 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : cond0_0 i) (hc1 : ¬cond0_1 i)
    (x0 : Vec F S8x2048 .i32) (x1 : Vec F S1x2048x1152 .f32) :
    sout0_A_0 c i a2 h2 a3 h3 a4 h4 a5 h5 a6 h6 a7 h7 hc0 hc1 x0 x1 = k0_pay4 (row i x0) x1 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S256x1152) hz2, View.readCov_unit_zero (S := S256x1152) _ hz2]
  simp only [View.readAt_eq_ld, h2.read_unread, h3.read_unread, View.ld_unit_zero (S := S1x2048x1152) hz3]
  rfl

/-- First point of a batch: the counter is reset, read back, and left at the update of the reset value. -/
theorem pieceA1 (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : cond0_0 i) (hc1 : ¬cond0_1 i)
    (x0 : Vec F S8x2048 .i32) (x1 : Vec F S1x2048x1152 .f32) :
    sout0_A_1 c i a2 h2 a3 h3 a4 h4 a5 h5 a6 h6 a7 h7 hc0 hc1 x0 x1 = k0_pay5 (row i x0) k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S256x128) hz2, View.readCov_unit_zero (S := S256x128) _ hz2]
  simp only [View.readAt_eq_ld, h2.read_unread]
  rfl

end Pieces

/-- The weight read off the loaded row is the weight read off the id block at the point's batch. -/
theorem wt_row (x0 : Vec Ideal S8x2048 .i32) (i : grid0.Coords) (l : Fin 256) (k : Fin 2048) :
    PoolPayload.wt (row i x0) l k = wt x0 i l k := by
  unfold PoolPayload.wt wt
  rw [row_apply]

/-- First point of a batch: the accumulator ends at zero plus the weighted sum of the block's hidden rows. -/
theorem accA_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : cond0_0 i) (hc1 : ¬cond0_1 i)
    (x0 : Vec Ideal S8x2048 .i32) (x1 : Vec Ideal S1x2048x1152 .f32) (l : Fin 256) (h : Fin 1152) :
    sout0_A_0 (F := Ideal) c i a2 h2 a3 h3 a4 h4 a5 h5 a6 h6 a7 h7 hc0 hc1 x0 x1 (ix2 l h)
      = 0 + ∑ k : Fin 2048, wt x0 i l k * x1 (ix3 (0 : Fin 1) k h) := by
  rw [congrFun (pieceA0 (F := Ideal) c i a2 h2 a3 h3 a4 h4 a5 h5 a6 h6 a7 h7 hc0 hc1 x0 x1) (ix2 l h), PoolPayload.pay4_apply, PoolPayload.pay1_apply]
  simp only [wt_row]

/-- First point of a batch: the counter ends at zero plus the number of the block's patches in the row. -/
theorem cntA_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : cond0_0 i) (hc1 : ¬cond0_1 i)
    (x0 : Vec Ideal S8x2048 .i32) (x1 : Vec Ideal S1x2048x1152 .f32) (l : Fin 256) (n : Fin 128) :
    sout0_A_1 (F := Ideal) c i a2 h2 a3 h3 a4 h4 a5 h5 a6 h6 a7 h7 hc0 hc1 x0 x1 (ix2 l n)
      = 0 + ∑ k : Fin 2048, wt x0 i l k := by
  rw [congrFun (pieceA1 (F := Ideal) c i a2 h2 a3 h3 a4 h4 a5 h5 a6 h6 a7 h7 hc0 hc1 x0 x1) (ix2 l n), PoolPayload.pay5_apply, PoolPayload.pay2_apply]
  simp only [wt_row]

/-- Last point of a batch: the accumulator ends at what it held plus the weighted sum of the block's hidden rows. -/
theorem accB_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec Ideal S8x2048 .i32) (x1 : Vec Ideal S1x2048x1152 .f32) (xs0 : Vec Ideal S256x1152 .f32) (xs1 : Vec Ideal S256x128 .f32)
    (l : Fin 256) (h : Fin 1152) :
    sout0_B_0 (F := Ideal) c i a2 h2 a3 h3 a4 h4 a5 h5 a6 h6 a7 h7 hc0 hc1 x0 x1 xs0 xs1 (ix2 l h)
      = xs0 (ix2 l h) + ∑ k : Fin 2048, wt x0 i l k * x1 (ix3 (0 : Fin 1) k h) := by
  rw [congrFun (pieceB0 (F := Ideal) c i a2 h2 a3 h3 a4 h4 a5 h5 a6 h6 a7 h7 hc0 hc1 x0 x1 xs0 xs1) (ix2 l h), PoolPayload.pay4_apply]
  simp only [wt_row]

/-- Last point of a batch: the counter ends at what it held plus the number of the block's patches in the row. -/
theorem cntB_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec Ideal S8x2048 .i32) (x1 : Vec Ideal S1x2048x1152 .f32) (xs0 : Vec Ideal S256x1152 .f32) (xs1 : Vec Ideal S256x128 .f32)
    (l : Fin 256) (n : Fin 128) :
    sout0_B_1 (F := Ideal) c i a2 h2 a3 h3 a4 h4 a5 h5 a6 h6 a7 h7 hc0 hc1 x0 x1 xs0 xs1 (ix2 l n)
      = xs1 (ix2 l n) + ∑ k : Fin 2048, wt x0 i l k := by
  rw [congrFun (pieceB1 (F := Ideal) c i a2 h2 a3 h3 a4 h4 a5 h5 a6 h6 a7 h7 hc0 hc1 x0 x1 xs0 xs1) (ix2 l n), PoolPayload.pay5_apply]
  simp only [wt_row]

/-- Last point of a batch: the pooled block written out is the updated accumulator times the scale. -/
theorem outB2_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec Ideal S8x2048 .i32) (x1 : Vec Ideal S1x2048x1152 .f32) (xs0 : Vec Ideal S256x1152 .f32) (xs1 : Vec Ideal S256x128 .f32)
    (l : Fin 256) (h : Fin 1152) :
    out0_B_2 (F := Ideal) c i a2 h2 a3 h3 a4 h4 a5 h5 a6 h6 a7 h7 hc0 hc1 x0 x1 xs0 xs1 (ix3 (0 : Fin 1) l h)
      = (xs0 (ix2 l h) + ∑ k : Fin 2048, wt x0 i l k * x1 (ix3 (0 : Fin 1) k h)) * Ideal.ofBits .f32 0x4007C3B6#32 := by
  rw [congrFun (pieceB2 (F := Ideal) c i a2 h2 a3 h3 a4 h4 a5 h5 a6 h6 a7 h7 hc0 hc1 x0 x1 xs0 xs1) (ix3 (0 : Fin 1) l h), PoolPayload.pay6_apply, PoolPayload.pay4_apply]
  simp only [wt_row]

/-- Last point of a batch: the counts block written out is the updated counter. -/
theorem outB3_apply (c : Dev nD) (i : grid0.Coords) (a2 : Memref sig .tc .vmem S8x2048 .i32) (h2 : a2.IsWhole) (a3 : Memref sig .tc .vmem S1x2048x1152 .f32) (h3 : a3.IsWhole) (a4 : Memref sig .tc .vmem S1x256x1152 .f32) (h4 : a4.IsWhole) (a5 : Memref sig .tc .vmem S1x256x128 .f32) (h5 : a5.IsWhole) (a6 : Memref sig .tc .vmem S256x1152 .f32) (h6 : a6.IsWhole) (a7 : Memref sig .tc .vmem S256x128 .f32) (h7 : a7.IsWhole) (hc0 : ¬cond0_0 i) (hc1 : cond0_1 i)
    (x0 : Vec Ideal S8x2048 .i32) (x1 : Vec Ideal S1x2048x1152 .f32) (xs0 : Vec Ideal S256x1152 .f32) (xs1 : Vec Ideal S256x128 .f32)
    (l : Fin 256) (n : Fin 128) :
    out0_B_3 (F := Ideal) c i a2 h2 a3 h3 a4 h4 a5 h5 a6 h6 a7 h7 hc0 hc1 x0 x1 xs0 xs1 (ix3 (0 : Fin 1) l n)
      = xs1 (ix2 l n) + ∑ k : Fin 2048, wt x0 i l k := by
  rw [congrFun (pieceB3 (F := Ideal) c i a2 h2 a3 h3 a4 h4 a5 h5 a6 h6 a7 h7 hc0 hc1 x0 x1 xs0 xs1) (ix3 (0 : Fin 1) l n), PoolPayload.pay7_apply, PoolPayload.pay5_apply]
  simp only [wt_row]

end Cert.KernelIdeal.PoolPieces

end
-- ==== Proof.KBlocks.lean ====
/-
  From the grid points to the two result arrays of the pooling kernel.

  The grid runs batch by batch, two points a batch: point `2b` sees patches `0 … 2047` of batch `b`, point `2b + 1` patches
  `2048 … 4095`, and only the second writes block `b` of the two results back. So block `b` of the pooled array is the sum over all
  4096 patches of the batch, each weighted by whether its segment id is the row, times the scale; block `b` of the counts is the
  number of such patches. The blocks tile the arrays.
-/
import proofs.«425512_j57775900066507_3_alg».proof.Proof.KPieces

noncomputable section

namespace Cert.KernelIdeal.PoolBlocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

open Cert.KernelIdeal.PoolPieces

/-- The block of segment ids point `t` sees. -/
abbrev idBlk (c : Dev nD) (t : Fin cfg0.N) : Vec Ideal S8x2048 .i32 := iblk m c 0 t
/-- The block of hidden rows point `t` sees. -/
abbrev xBlk (c : Dev nD) (t : Fin cfg0.N) : Vec Ideal S1x2048x1152 .f32 := iblk m c 1 t
/-- The array of segment ids the region finds. -/
abbrev idArr (c : Dev nD) : Vec Ideal S8x4096 .i32 := V m c main_v17
/-- The array of hidden rows the region finds. -/
abbrev xArr (c : Dev nD) : Vec Ideal S8x4096x1152 .f32 := V m c main_arg0

/-- The index maps over the grid: point `t` is batch `t / 2`, tile `t % 2`. -/
theorem idx_facts : ∀ t : Fin cfg0.N,
    win0_0.index t (0 : Fin 2) = 0 ∧ win0_0.index t (1 : Fin 2) = t.val % 2
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0
    ∧ ((grid0.coords t) 0).val = t.val / 2 :=
  (by decide +kernel : ∀ t : Fin grid0.N, _)

/-- The id block at point `t` holds columns `2048 (t % 2) …` of the id array. -/
theorem idBlk_apply (c : Dev nD) (t : Fin cfg0.N) (b : Fin 8) (k : Fin 2048) (s : Fin 4096)
    (hs : s.val = 2048 * (t.val % 2) + k.val) :
    idBlk m c t (ix2 b k) = idArr m c (ix2 b s) := by
  obtain ⟨e0, e1, -⟩ := idx_facts t
  unfold idBlk iblk
  rw [View.read_apply]
  show V m c main_v17 _ = V m c main_v17 _
  congr 1
  funext a
  apply Fin.ext
  match a with
  | ⟨0, _⟩ => show win0_0.index t 0 * 8 + 1 * b.val = b.val; rw [e0]; omega
  | ⟨1, _⟩ => show win0_0.index t 1 * 2048 + 1 * k.val = s.val; rw [e1, hs]; omega

/-- The hidden block at point `t` holds rows `2048 (t % 2) …` of batch `t / 2` of the hidden array. -/
theorem xBlk_apply (c : Dev nD) (t : Fin cfg0.N) (b : Fin 8) (hb : b.val = t.val / 2) (k : Fin 2048) (s : Fin 4096)
    (hs : s.val = 2048 * (t.val % 2) + k.val) (h : Fin 1152) :
    xBlk m c t (ix3 (0 : Fin 1) k h) = xArr m c (ix3 b s h) := by
  obtain ⟨-, -, e0, e1, e2, -⟩ := idx_facts t
  unfold xBlk iblk
  rw [View.read_apply]
  show V m c main_arg0 _ = V m c main_arg0 _
  congr 1
  funext a
  apply Fin.ext
  match a with
  | ⟨0, _⟩ => show win0_1.index t 0 * 1 + 1 * 0 = b.val; rw [e0, hb]; omega
  | ⟨1, _⟩ => show win0_1.index t 1 * 2048 + 1 * k.val = s.val; rw [e1, hs]; omega
  | ⟨2, _⟩ => show win0_1.index t 2 * 1152 + 1 * h.val = h.val; rw [e2]; omega

/-- The batch of a grid point, as the body reads it off the grid's coordinates. -/
theorem gb_coords (t : Fin cfg0.N) (b : Fin 8) (hb : b.val = t.val / 2) : gb (grid0.coords t) = b := by
  obtain ⟨-, -, -, -, -, -, -, -, -, -, -, e⟩ := idx_facts t
  unfold gb
  exact Fin.ext (e.trans hb.symm)

/-- One patch's weighted hidden entry at a point, over the arrays. -/
theorem term_at (c : Dev nD) (t : Fin cfg0.N) (b : Fin 8) (hb : b.val = t.val / 2) (l : Fin 256) (h : Fin 1152)
    (k : Fin 2048) (s : Fin 4096) (hs : s.val = 2048 * (t.val % 2) + k.val) :
    wt (idBlk m c t) (grid0.coords t) l k * xBlk m c t (ix3 (0 : Fin 1) k h)
      = if idArr m c (ix2 b s) = BitVec.ofNat 32 l.val then xArr m c (ix3 b s h) else 0 := by
  unfold wt
  rw [gb_coords t b hb, idBlk_apply m c t b k s hs, xBlk_apply m c t b hb k s hs h]
  split_ifs
  · exact one_mul _
  · exact zero_mul _

/-- One patch's weight at a point, over the id array. -/
theorem wt_at (c : Dev nD) (t : Fin cfg0.N) (b : Fin 8) (hb : b.val = t.val / 2) (l : Fin 256)
    (k : Fin 2048) (s : Fin 4096) (hs : s.val = 2048 * (t.val % 2) + k.val) :
    wt (idBlk m c t) (grid0.coords t) l k
      = if idArr m c (ix2 b s) = BitVec.ofNat 32 l.val then (1 : EReal) else 0 := by
  unfold wt
  rw [gb_coords t b hb, idBlk_apply m c t b k s hs]

/-- A sum over the 4096 patches of a batch is the sum over its first 2048 plus the sum over its last 2048. -/
theorem sum_halves (f : Fin 4096 → EReal) :
    ∑ s : Fin 4096, f s
      = (∑ k : Fin 2048, f ⟨k.val, by omega⟩) + ∑ k : Fin 2048, f ⟨2048 + k.val, by omega⟩ :=
  Fin.sum_univ_add (a := 2048) (b := 2048) f

/-- After the first point of a batch the accumulator holds zero plus the weighted sum over the point's 2048 patches. -/
theorem acc_even (c : Dev nD) (t : Fin cfg0.N) (h0 : t.val % 2 = 0) (l : Fin 256) (h : Fin 1152) :
    (outsAt0 m c t.val t.isLt).2.2.1 (ix2 l h)
      = 0 + ∑ k : Fin 2048, wt (idBlk m c t) (grid0.coords t) l k * xBlk m c t (ix3 (0 : Fin 1) k h) := by
  have h1 : ¬t.val % 2 = 1 := by omega
  rw [outsAt0_A m c t h0 h1]
  dsimp only
  exact accA_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (idBlk m c t) (xBlk m c t) l h

/-- After the first point of a batch the counter holds zero plus the number of the point's patches in the row. -/
theorem cnt_even (c : Dev nD) (t : Fin cfg0.N) (h0 : t.val % 2 = 0) (l : Fin 256) (n : Fin 128) :
    (outsAt0 m c t.val t.isLt).2.2.2 (ix2 l n)
      = 0 + ∑ k : Fin 2048, wt (idBlk m c t) (grid0.coords t) l k := by
  have h1 : ¬t.val % 2 = 1 := by omega
  rw [outsAt0_A m c t h0 h1]
  dsimp only
  exact cntA_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (idBlk m c t) (xBlk m c t) l n

/-- The pooled specification at an index given by its coordinates. -/
theorem pooledK_ix3 (x : Cert.Pool.S8x4096x1152.Idx → EReal) (J : IVec Cert.Pool.S8x4096 32) (b : Fin 8) (l : Fin 256) (h : Fin 1152) :
    Cert.Pool.pooledK x J (ix3 b l h) = Cert.Pool.segSum x J b l h * Ideal.ofBits .f32 0x4007C3B6#32 := rfl

/-- The counts specification at an index given by its coordinates. -/
theorem countsK_ix3 (J : IVec Cert.Pool.S8x4096 32) (b : Fin 8) (l : Fin 256) (n : Fin 128) :
    Cert.Pool.countsK J (ix3 b l n) = ∑ s : Fin 4096, if J (ix2 b s) = BitVec.ofNat 32 l.val then (1 : EReal) else 0 := rfl

/-- At the last point of a batch the pooled block written out is the batch's segment sums over all 4096 patches, scaled. -/
theorem pooled_odd (c : Dev nD) (t : Fin cfg0.N) (h1 : t.val % 2 = 1) (b : Fin 8) (hb : b.val = t.val / 2)
    (l : Fin 256) (h : Fin 1152) :
    (outsAt0 m c t.val t.isLt).1 (ix3 (0 : Fin 1) l h) = Cert.Pool.pooledK (xArr m c) (idArr m c) (ix3 b l h) := by
  have h0 : ¬t.val % 2 = 0 := by omega
  have hlt : t.val - 1 < cfg0.N := Nat.lt_of_le_of_lt (Nat.sub_le _ _) t.isLt
  rw [outsAt0_B m c t h0 h1]
  dsimp only
  refine (outB2_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (idBlk m c t) (xBlk m c t) (outsAt0 m c (t.val - 1) hlt).2.2.1 (outsAt0 m c (t.val - 1) hlt).2.2.2 l h).trans ?_
  have he : (⟨t.val - 1, hlt⟩ : Fin cfg0.N).val % 2 = 0 := by show (t.val - 1) % 2 = 0; omega
  have hacc : (outsAt0 m c (t.val - 1) hlt).2.2.1 (ix2 l h) = _ := acc_even m c ⟨t.val - 1, hlt⟩ he l h
  rw [hacc]
  refine Eq.trans ?_ (pooledK_ix3 (xArr m c) (idArr m c) b l h).symm
  refine congrArg (fun z : EReal => z * Ideal.ofBits .f32 0x4007C3B6#32) ?_
  unfold Cert.Pool.segSum
  rw [sum_halves, zero_add]
  refine congrArg₂ (fun a b : EReal => a + b) (Finset.sum_congr rfl fun k _ => ?_) (Finset.sum_congr rfl fun k _ => ?_)
  · exact term_at m c ⟨t.val - 1, hlt⟩ b (by show b.val = (t.val - 1) / 2; omega) l h k ⟨k.val, by omega⟩
      (by show k.val = 2048 * ((t.val - 1) % 2) + k.val; omega)
  · exact term_at m c t b hb l h k ⟨2048 + k.val, by omega⟩ (by show 2048 + k.val = 2048 * (t.val % 2) + k.val; omega)

/-- At the last point of a batch the counts block written out is the number of the batch's 4096 patches in the row. -/
theorem counts_odd (c : Dev nD) (t : Fin cfg0.N) (h1 : t.val % 2 = 1) (b : Fin 8) (hb : b.val = t.val / 2)
    (l : Fin 256) (n : Fin 128) :
    (outsAt0 m c t.val t.isLt).2.1 (ix3 (0 : Fin 1) l n) = Cert.Pool.countsK (idArr m c) (ix3 b l n) := by
  have h0 : ¬t.val % 2 = 0 := by omega
  have hlt : t.val - 1 < cfg0.N := Nat.lt_of_le_of_lt (Nat.sub_le _ _) t.isLt
  rw [outsAt0_B m c t h0 h1]
  dsimp only
  refine (outB3_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (idBlk m c t) (xBlk m c t) (outsAt0 m c (t.val - 1) hlt).2.2.1 (outsAt0 m c (t.val - 1) hlt).2.2.2 l n).trans ?_
  have he : (⟨t.val - 1, hlt⟩ : Fin cfg0.N).val % 2 = 0 := by show (t.val - 1) % 2 = 0; omega
  have hcnt : (outsAt0 m c (t.val - 1) hlt).2.2.2 (ix2 l n) = _ := cnt_even m c ⟨t.val - 1, hlt⟩ he l n
  rw [hcnt]
  refine Eq.trans ?_ (countsK_ix3 (idArr m c) b l n).symm
  rw [sum_halves, zero_add]
  refine congrArg₂ (fun a b : EReal => a + b) (Finset.sum_congr rfl fun k _ => ?_) (Finset.sum_congr rfl fun k _ => ?_)
  · exact wt_at m c ⟨t.val - 1, hlt⟩ b (by show b.val = (t.val - 1) / 2; omega) l k ⟨k.val, by omega⟩
      (by show k.val = 2048 * ((t.val - 1) % 2) + k.val; omega)
  · exact wt_at m c t b hb l k ⟨2048 + k.val, by omega⟩ (by show 2048 + k.val = 2048 * (t.val % 2) + k.val; omega)

/-- The pooled block at an odd point, at any index of the block and the index of the array it is written to. -/
theorem pooled_odd_at (c : Dev nD) (t : Fin cfg0.N) (h1 : t.val % 2 = 1) (j : S1x256x1152.Idx) (i : Cert.Pool.S8x256x1152.Idx)
    (hi0 : (i 0).val = t.val / 2) (hi1 : (i 1).val = (j 1).val) (hi2 : (i 2).val = (j 2).val) :
    (outsAt0 m c t.val t.isLt).1 j = Cert.Pool.pooledK (xArr m c) (idArr m c) i := by
  have ej0 : @Eq (Fin 1) (j 0) 0 := @Subsingleton.elim (Fin 1) _ (j 0) 0
  have ej : j = ix3 (0 : Fin 1) (j 1) (j 2) :=
    (eq_ix3 j).trans (congrArg (fun z : Fin 1 => ix3 z (j 1) (j 2)) ej0)
  have ei : i = ix3 (i 0) (j 1) (j 2) :=
    (eq_ix3 i).trans (congrArg₂ (fun p q => ix3 (i 0) p q) (Fin.ext hi1) (Fin.ext hi2))
  calc (outsAt0 m c t.val t.isLt).1 j
      = (outsAt0 m c t.val t.isLt).1 (ix3 (0 : Fin 1) (j 1) (j 2)) := congrArg (outsAt0 m c t.val t.isLt).1 ej
    _ = Cert.Pool.pooledK (xArr m c) (idArr m c) (ix3 (i 0) (j 1) (j 2)) := pooled_odd m c t h1 (i 0) hi0 (j 1) (j 2)
    _ = Cert.Pool.pooledK (xArr m c) (idArr m c) i := congrArg (Cert.Pool.pooledK (xArr m c) (idArr m c)) ei.symm

/-- The counts block at an odd point, at any index of the block and the index of the array it is written to. -/
theorem counts_odd_at (c : Dev nD) (t : Fin cfg0.N) (h1 : t.val % 2 = 1) (j : S1x256x128.Idx) (i : Cert.Pool.S8x256x128.Idx)
    (hi0 : (i 0).val = t.val / 2) (hi1 : (i 1).val = (j 1).val) (hi2 : (i 2).val = (j 2).val) :
    (outsAt0 m c t.val t.isLt).2.1 j = Cert.Pool.countsK (idArr m c) i := by
  have ej0 : @Eq (Fin 1) (j 0) 0 := @Subsingleton.elim (Fin 1) _ (j 0) 0
  have ej : j = ix3 (0 : Fin 1) (j 1) (j 2) :=
    (eq_ix3 j).trans (congrArg (fun z : Fin 1 => ix3 z (j 1) (j 2)) ej0)
  have ei : i = ix3 (i 0) (j 1) (j 2) :=
    (eq_ix3 i).trans (congrArg₂ (fun p q => ix3 (i 0) p q) (Fin.ext hi1) (Fin.ext hi2))
  calc (outsAt0 m c t.val t.isLt).2.1 j
      = (outsAt0 m c t.val t.isLt).2.1 (ix3 (0 : Fin 1) (j 1) (j 2)) := congrArg (outsAt0 m c t.val t.isLt).2.1 ej
    _ = Cert.Pool.countsK (idArr m c) (ix3 (i 0) (j 1) (j 2)) := counts_odd m c t h1 (i 0) hi0 (j 1) (j 2)
    _ = Cert.Pool.countsK (idArr m c) i := congrArg (Cert.Pool.countsK (idArr m c)) ei.symm

/-- What an odd point writes back of the pooled array is its block of the pooled specification. -/
theorem flushed2_eq (c : Dev nD) (t : Fin cfg0.N) (hf : (cfg0.win 2).flush t = true) :
    (dats m 0 c).flushed 2 t
      = ((cfg0.win 2).blk t).view.read (Elt Ideal) (Cert.Pool.pooledK (xArr m c) (idArr m c)) := by
  have h1 : t.val % 2 = 1 := (flush0_2 t).mp hf
  obtain ⟨-, -, -, -, -, e0, e1, e2, -⟩ := idx_facts t
  show (cfg0.win 2).cut (grid0.coords t) ((dats m 0 c).after 2 t) = _
  rw [after0_2]
  funext j
  have hj0 : (j 0).val < 1 := (j 0).isLt
  show (outsAt0 m c t.val t.isLt).1 ((cfg0.win 2).xinj (grid0.coords t) j)
    = Cert.Pool.pooledK (xArr m c) (idArr m c) (((cfg0.win 2).blk t).view.emb j)
  refine pooled_odd_at m c t h1 ((cfg0.win 2).xinj (grid0.coords t) j) (((cfg0.win 2).blk t).view.emb j) ?_ ?_ ?_
  · show win0_2.index t 0 * 1 + 1 * (j 0).val = t.val / 2
    rw [e0]; omega
  · show win0_2.index t 1 * 256 + 1 * (j 1).val = (j 1).val
    rw [e1]; omega
  · show win0_2.index t 2 * 1152 + 1 * (j 2).val = (j 2).val
    rw [e2]; omega

/-- What an odd point writes back of the counts array is its block of the counts specification. -/
theorem flushed3_eq (c : Dev nD) (t : Fin cfg0.N) (hf : (cfg0.win 3).flush t = true) :
    (dats m 0 c).flushed 3 t
      = ((cfg0.win 3).blk t).view.read (Elt Ideal) (Cert.Pool.countsK (idArr m c)) := by
  have h1 : t.val % 2 = 1 := (flush0_3 t).mp hf
  obtain ⟨-, -, -, -, -, -, -, -, e0, e1, e2, -⟩ := idx_facts t
  show (cfg0.win 3).cut (grid0.coords t) ((dats m 0 c).after 3 t) = _
  rw [after0_3]
  funext j
  have hj0 : (j 0).val < 1 := (j 0).isLt
  show (outsAt0 m c t.val t.isLt).2.1 ((cfg0.win 3).xinj (grid0.coords t) j)
    = Cert.Pool.countsK (idArr m c) (((cfg0.win 3).blk t).view.emb j)
  refine counts_odd_at m c t h1 ((cfg0.win 3).xinj (grid0.coords t) j) (((cfg0.win 3).blk t).view.emb j) ?_ ?_ ?_
  · show win0_3.index t 0 * 1 + 1 * (j 0).val = t.val / 2
    rw [e0]; omega
  · show win0_3.index t 1 * 256 + 1 * (j 1).val = (j 1).val
    rw [e1]; omega
  · show win0_3.index t 2 * 128 + 1 * (j 2).val = (j 2).val
    rw [e2]; omega

/-- Every index of the pooled array lies in the block the last point of its batch writes back. -/
theorem cover2 (i : S8x256x1152.Idx) :
    ∃ t : Fin cfg0.N, (cfg0.win 2).flush t = true ∧ i ∈ ((cfg0.win 2).blk t).view.set := by
  have hN : cfg0.N = 16 := N_0
  have hi0 : (i 0).val < 8 := (i 0).isLt
  have hi1 : (i 1).val < 256 := (i 1).isLt
  have hi2 : (i 2).val < 1152 := (i 2).isLt
  obtain ⟨t, ht⟩ : ∃ t : Fin cfg0.N, t.val = 2 * (i 0).val + 1 := ⟨⟨2 * (i 0).val + 1, by omega⟩, rfl⟩
  obtain ⟨-, -, -, -, -, e0, e1, e2, -⟩ := idx_facts t
  refine ⟨t, (flush0_2 t).mpr (by omega), ?_⟩
  show i ∈ ((View.whole main_v18_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 256 ≤ (i 1).val ∧ (i 1).val < win0_2.index t 1 * 256 + 256
    rw [e1]; omega
  | ⟨2, _⟩ =>
    show win0_2.index t 2 * 1152 ≤ (i 2).val ∧ (i 2).val < win0_2.index t 2 * 1152 + 1152
    rw [e2]; omega

/-- Every index of the counts array lies in the block the last point of its batch writes back. -/
theorem cover3 (i : S8x256x128.Idx) :
    ∃ t : Fin cfg0.N, (cfg0.win 3).flush t = true ∧ i ∈ ((cfg0.win 3).blk t).view.set := by
  have hN : cfg0.N = 16 := N_0
  have hi0 : (i 0).val < 8 := (i 0).isLt
  have hi1 : (i 1).val < 256 := (i 1).isLt
  have hi2 : (i 2).val < 128 := (i 2).isLt
  obtain ⟨t, ht⟩ : ∃ t : Fin cfg0.N, t.val = 2 * (i 0).val + 1 := ⟨⟨2 * (i 0).val + 1, by omega⟩, rfl⟩
  obtain ⟨-, -, -, -, -, -, -, -, e0, e1, e2, -⟩ := idx_facts t
  refine ⟨t, (flush0_3 t).mpr (by omega), ?_⟩
  show i ∈ ((View.whole main_v18_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; omega
  | ⟨1, _⟩ =>
    show win0_3.index t 1 * 256 ≤ (i 1).val ∧ (i 1).val < win0_3.index t 1 * 256 + 256
    rw [e1]; omega
  | ⟨2, _⟩ =>
    show win0_3.index t 2 * 128 ≤ (i 2).val ∧ (i 2).val < win0_3.index t 2 * 128 + 128
    rw [e2]; omega

/-- The pooled array after the run: the segment sums, scaled, of the hidden states and the segment ids the region found. -/
theorem final2 (c : Dev nD) :
    (dats m 0 c).arrAt 2 cfg0.N = Cert.Pool.pooledK (V m c main_arg0) (V m c main_v17) := by
  exact (dats m 0 c).arrAt_eq_of_cover 2 (Cert.Pool.pooledK (xArr m c) (idArr m c)) (flushed2_eq m c) (fun i => cover2 i)

/-- The counts array after the run: per batch and row, the number of patches with that segment id. -/
theorem final3 (c : Dev nD) :
    (dats m 0 c).arrAt 3 cfg0.N = Cert.Pool.countsK (V m c main_v17) := by
  exact (dats m 0 c).arrAt_eq_of_cover 3 (Cert.Pool.countsK (idArr m c)) (flushed3_eq m c) (fun i => cover3 i)

end Cert.KernelIdeal.PoolBlocks

end
-- ==== Proof.KHost.lean ====
/-
  The host lines around the pooling kernel's region.

  Before the region the program computes every patch's segment id and clamps it into `[0, 255]`; where the ids are already in
  range the clamp changes nothing. After the region it reads lane 0 of the counts and compares with zero.
-/
import proofs.«425512_j57775900066507_3_alg».proof.Proof.Gen.KernelIdeal.Frame
import proofs.«425512_j57775900066507_3_alg».proof.Proof.Spec
import Idealize.ShloMosaic.Lib.StableHlo.Run
import Idealize.ShloMosaic.Lib.Tactic

noncomputable section

namespace Cert.KernelIdeal.PoolHost

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The valuation before the region, stretch by stretch. -/
theorem V0_split (c : Dev nD) :
    V0 m c = StableHlo.after hostOps0_5 (StableHlo.after hostOps0_4 (StableHlo.after hostOps0_3 (StableHlo.after hostOps0_2
      (StableHlo.after hostOps0_1 (StableHlo.after hostOps0 (fun b => m (c, b))))))) := by
  show StableHlo.after (List.flatten [hostOps0, hostOps0_1, hostOps0_2, hostOps0_3, hostOps0_4, hostOps0_5]) (fun b => m (c, b)) = _
  rw [List.flatten_cons, List.flatten_cons, List.flatten_cons, List.flatten_cons, List.flatten_cons, List.flatten_cons, List.flatten_nil,
    List.append_nil, StableHlo.after_append, StableHlo.after_append, StableHlo.after_append, StableHlo.after_append, StableHlo.after_append]

section Stretches

variable (W : Valuation τ sig (Elt F))

/-! ### The first stretch: the clamped coordinates and the largest x. -/

theorem s0_v1 : (StableHlo.after hostOps0 W (Proc.devRef .tc main_v1) : S8x4096x2.Idx → BitVec 32)
    = Cert.Pool.clamped (W (Proc.devRef .tc main_arg1)) := by
  dsimp only [hostOps0]
  after_results
  rfl

theorem s0_v7 : (StableHlo.after hostOps0 W (Proc.devRef .tc main_v7) : S8x1.Idx → BitVec 32)
    = Cert.Pool.maxX (W (Proc.devRef .tc main_arg1)) := by
  dsimp only [hostOps0]
  after_results
  rfl

theorem s0_c2 : (StableHlo.after hostOps0 W (Proc.devRef .tc main_c_2) : S_.Idx → BitVec 32)
    = constantI S_ 32 4#32 := by
  dsimp only [hostOps0]
  after_results

/-! ### The floor divisions. -/

theorem s1_v8 (h : (W (Proc.devRef .tc main_c_2) : S_.Idx → BitVec 32) = constantI S_ 32 4#32) :
    (StableHlo.after hostOps0_1 W (Proc.devRef .tc main_v8) : S8x4096x2.Idx → BitVec 32)
      = Cert.Pool.floorDiv4 S8x4096x2 (by decide) (W (Proc.devRef .tc main_v1)) := by
  dsimp only [hostOps0_1]
  after_results
  rw [h]
  chain_rfl

theorem s1_v7 : StableHlo.after hostOps0_1 W (Proc.devRef .tc main_v7) = W (Proc.devRef .tc main_v7) := by
  dsimp only [hostOps0_1]
  after_results

theorem s2_v10 : (StableHlo.after hostOps0_2 W (Proc.devRef .tc main_v10) : S8x4096.Idx → BitVec 32)
    = shapeCast S8x4096 (extractStridedSlice S8x4096x1 ![0, 0, 0] (W (Proc.devRef .tc main_v8) : S8x4096x2.Idx → BitVec 32) (by decide)) (by decide) := by
  dsimp only [hostOps0_2]
  after_results
  rfl

theorem s2_c3 : (StableHlo.after hostOps0_2 W (Proc.devRef .tc main_c_3) : S_.Idx → BitVec 32)
    = constantI S_ 32 4#32 := by
  dsimp only [hostOps0_2]
  after_results

theorem s2_v7 : StableHlo.after hostOps0_2 W (Proc.devRef .tc main_v7) = W (Proc.devRef .tc main_v7) := by
  dsimp only [hostOps0_2]
  after_results

theorem s2_v8 : StableHlo.after hostOps0_2 W (Proc.devRef .tc main_v8) = W (Proc.devRef .tc main_v8) := by
  dsimp only [hostOps0_2]
  after_results

theorem s3_v11 (h : (W (Proc.devRef .tc main_c_3) : S_.Idx → BitVec 32) = constantI S_ 32 4#32) :
    (StableHlo.after hostOps0_3 W (Proc.devRef .tc main_v11) : S8x1.Idx → BitVec 32)
      = Cert.Pool.floorDiv4 S8x1 (by decide) (W (Proc.devRef .tc main_v7)) := by
  dsimp only [hostOps0_3]
  after_results
  rw [h]
  chain_rfl

theorem s3_v10 : StableHlo.after hostOps0_3 W (Proc.devRef .tc main_v10) = W (Proc.devRef .tc main_v10) := by
  dsimp only [hostOps0_3]
  after_results

theorem s3_v8 : StableHlo.after hostOps0_3 W (Proc.devRef .tc main_v8) = W (Proc.devRef .tc main_v8) := by
  dsimp only [hostOps0_3]
  after_results

/-! ### The ids, and the clamp. -/

theorem s4_v16 : (StableHlo.after hostOps0_4 W (Proc.devRef .tc main_v16) : S8x4096.Idx → BitVec 32)
    = addi (W (Proc.devRef .tc main_v10) : S8x4096.Idx → BitVec 32)
        (muli (broadcastInDim S8x4096 ![0, 1] (by decide) (W (Proc.devRef .tc main_v11) : S8x1.Idx → BitVec 32))
          (shapeCast S8x4096 (extractStridedSlice S8x4096x1 ![0, 0, 1] (W (Proc.devRef .tc main_v8) : S8x4096x2.Idx → BitVec 32) (by decide)) (by decide))) := by
  dsimp only [hostOps0_4]
  after_results
  rfl

theorem s4_c4 : (StableHlo.after hostOps0_4 W (Proc.devRef .tc main_c_4) : S_.Idx → BitVec 32)
    = constantI S_ 32 0#32 := by
  dsimp only [hostOps0_4]
  after_results

theorem s4_c5 : (StableHlo.after hostOps0_4 W (Proc.devRef .tc main_c_5) : S_.Idx → BitVec 32)
    = constantI S_ 32 255#32 := by
  dsimp only [hostOps0_4]
  after_results

theorem s5_v16 : StableHlo.after hostOps0_5 W (Proc.devRef .tc main_v16) = W (Proc.devRef .tc main_v16) := by
  dsimp only [hostOps0_5]
  after_results

theorem s5_v17 : (StableHlo.after hostOps0_5 W (Proc.devRef .tc main_v17) : S8x4096.Idx → BitVec 32)
    = minsi (broadcastInDim S8x4096 ![] (by decide) (W (Proc.devRef .tc main_c_5) : S_.Idx → BitVec 32))
        (maxsi (broadcastInDim S8x4096 ![] (by decide) (W (Proc.devRef .tc main_c_4) : S_.Idx → BitVec 32))
          (W (Proc.devRef .tc main_v16) : S8x4096.Idx → BitVec 32)) := by
  dsimp only [hostOps0_5]
  after_results
  chain_rfl

end Stretches

/-- The ids the host lines compute are the specification's, of the launch contents of the patch positions. -/
theorem ids_eq (c : Dev nD) :
    (V m c main_v16 : S8x4096.Idx → BitVec 32) = Cert.Pool.segIds (m ((c : Thread nD τ).loc main_arg1)) := by
  show (V0 m c (Proc.devRef .tc main_v16) : S8x4096.Idx → BitVec 32) = _
  rw [V0_split m c, s5_v16, s4_v16, s3_v10, s2_v10, s3_v8, s2_v8, s1_v8 _ (s0_c2 _), s0_v1,
    s3_v11 _ (s2_c3 _), s2_v7, s1_v7, s0_v7]
  rfl

/-- A word in `[0, 256)` is its own clamp into `[0, 255]`. -/
theorem clamp_word (x : BitVec 32) (h0 : 0 ≤ x.toInt) (h1 : x.toInt < 256) :
    IntOp.minsi (255#32) (IntOp.maxsi (0#32) x) = x := by
  have e0 : x.slt 0#32 = false := by
    simp only [BitVec.slt, BitVec.toInt_zero, decide_eq_false_iff_not, not_lt]; exact h0
  have e255 : (255#32 : BitVec 32).toInt = 255 := by decide
  have e1 : (255#32 : BitVec 32).slt x = false := by
    simp only [BitVec.slt, e255, decide_eq_false_iff_not, not_lt]; omega
  unfold IntOp.minsi IntOp.maxsi
  rw [e0, if_neg Bool.false_ne_true, e1, if_neg Bool.false_ne_true]

/-- Ids already in `[0, 256)` pass the clamp into `[0, 255]` unchanged: the region's first window holds the ids. -/
theorem clip_eq (c : Dev nD) (hJ : Cert.Pool.InRange (Cert.Pool.segIds (m ((c : Thread nD τ).loc main_arg1)))) :
    (V m c main_v17 : S8x4096.Idx → BitVec 32) = Cert.Pool.segIds (m ((c : Thread nD τ).loc main_arg1)) := by
  have e16 := ids_eq m c
  have e : (V m c main_v17 : S8x4096.Idx → BitVec 32)
      = minsi (broadcastInDim S8x4096 ![] (by decide) (constantI S_ 32 255#32))
          (maxsi (broadcastInDim S8x4096 ![] (by decide) (constantI S_ 32 0#32)) (V m c main_v16 : S8x4096.Idx → BitVec 32)) := by
    show (V0 m c (Proc.devRef .tc main_v17) : S8x4096.Idx → BitVec 32)
      = minsi _ (maxsi _ (V0 m c (Proc.devRef .tc main_v16) : S8x4096.Idx → BitVec 32))
    rw [V0_split m c, s5_v17, s5_v16, s4_c4, s4_c5]
  rw [e, e16]
  funext i
  exact clamp_word _ (hJ i).1 (hJ i).2

/-- The lines after the region, from any contents: lane 0 of the counts compared with zero. -/
theorem t_v22 (W : Valuation τ sig (Elt F)) :
    (StableHlo.after hostOps1 W (Proc.devRef .tc main_v22) : S8x256.Idx → BitVec 1)
      = Cert.Pool.maskTerm (F := F) (W (Proc.devRef .tc main_v18_1)) := by
  dsimp only [hostOps1]
  after_results
  rfl

/-- The mask the program returns: the lines after the region applied to the counts array the region leaves. -/
theorem tail_eq (c : Dev nD) :
    Pipeline.afterTail₀ cfgs (dats m) 0 (V0 m) [hostOps1] c main_v22
      = Cert.Pool.maskTerm (F := F) ((dats m 0 c).arrAt 3 cfg0.N) := by
  unfold Pipeline.afterTail₀
  show StableHlo.after hostOps1 _ (Proc.devRef .tc main_v22) = _
  rw [t_v22]
  exact congrArg (Cert.Pool.maskTerm (F := F)) (Pipeline.withArrays_arr spec0 launch0.win.arr_inj c _ _ 3)

end Cert.KernelIdeal.PoolHost
end
-- ==== Proof.Bridge.lean ====
/-
  The two scales agree, and the counts decide the mask.

  The kernel multiplies a segment sum by the f32 word of `√1152 / 16`; the reference divides it by 16 and multiplies by the f32
  word of `√1152`. Dividing an f32 word by a power of two is exact, so the first word IS the second over 16, and on every extended
  real `x / 16 · c = x · (c / 16)`. A count of patches, a natural number as an extended real, is positive exactly when it is not
  zero.
-/
import proofs.«425512_j57775900066507_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Pool

open Idealize.ShloMosaic Idealize.ShloMosaic.ValueIdx

/-- The word `0x41800000` denotes 16. -/
theorem ofBits_sixteen : Ideal.ofBits .f32 0x41800000#32 = ((16 : ℝ) : EReal) := by
  simp [Ideal.ofBits, Ideal.ieee, -EReal.coe_mul]; norm_num

/-- The reference's scale word `0x4207C3B6`: significand `2^23 + 508854`, exponent `132 - 127 - 23 = -18`. -/
theorem ofBits_refScale : Ideal.ofBits .f32 0x4207C3B6#32 = ((8897462 / 262144 : ℝ) : EReal) := by
  simp [Ideal.ofBits, Ideal.ieee, -EReal.coe_mul]; norm_num

/-- The kernel's scale word `0x4007C3B6`: the same significand four binades lower, the reference's scale over 16. -/
theorem ofBits_kerScale : Ideal.ofBits .f32 0x4007C3B6#32 = ((8897462 / 262144 / 16 : ℝ) : EReal) := by
  simp [Ideal.ofBits, Ideal.ieee, -EReal.coe_mul]; norm_num

/-- On every extended real, times the kernel's scale is over 16 times the reference's scale. -/
theorem scale_eq (S : EReal) :
    S * Ideal.ofBits .f32 0x4007C3B6#32 = Ideal.div S (Ideal.ofBits .f32 0x41800000#32) * Ideal.ofBits .f32 0x4207C3B6#32 := by
  rw [ofBits_sixteen, ofBits_refScale, ofBits_kerScale, Ideal.div_coe (by norm_num : (16 : ℝ) ≠ 0), mul_assoc, ← EReal.coe_mul]
  congr 2
  norm_num

/-- The kernel's pooled array is the reference's. -/
theorem pooledK_eq_pooledR (x : S8x4096x1152.Idx → EReal) (J : IVec S8x4096 32) : pooledK x J = pooledR x J := by
  funext i
  exact scale_eq _

/-- A sum of zeros and ones is positive exactly when some term is a one. -/
theorem sum_boole_pos {ι : Type} [Fintype ι] (P : ι → Prop) [DecidablePred P] :
    (0 : EReal) < ∑ s : ι, (if P s then (1 : EReal) else 0) ↔ ∃ s, P s := by
  have hnn : ∀ s ∈ (Finset.univ : Finset ι), (0 : EReal) ≤ (if P s then (1 : EReal) else 0) := by
    intro s _; split <;> norm_num
  constructor
  · intro h
    by_contra hne
    have : ∑ s : ι, (if P s then (1 : EReal) else 0) = 0 :=
      Finset.sum_eq_zero fun s _ => if_neg (not_exists.mp hne s)
    rw [this] at h
    exact lt_irrefl _ h
  · rintro ⟨s, hs⟩
    refine lt_of_lt_of_le ?_ (Finset.single_le_sum hnn (Finset.mem_univ s))
    rw [if_pos hs]; norm_num

/-- Lane 0 of the counts compared with zero is the mask. -/
theorem maskTerm_countsK (J : IVec S8x4096 32) : maskTerm (F := Ideal) (countsK J) = maskOf J := by
  funext i
  obtain ⟨b, l, rfl⟩ : ∃ (b : Fin 8) (l : Fin 256), i = ix2 b l := ⟨i 0, i 1, eq_ix2 i⟩
  have hcnt : shapeCast S8x256 (extractStridedSlice S8x256x1 ![0, 0, 0] (countsK J) (by decide)) (by decide) (ix2 b l)
      = countsK J (ix3 b l (0 : Fin 128)) := by
    rw [shapeCast_apply _ _ (ix2 b l) (ix3 b l (0 : Fin 1)) (by
      rw [Shape.rowMajor_val_two, Shape.rowMajor_val_three]
      show (b.val * 256 + l.val) * 1 + 0 = b.val * 256 + l.val
      omega)]
    exact extractStridedSlice_apply _ _ _ _ _ (fun a => by
      match a with
      | ⟨0, _⟩ => show b.val = 0 + b.val; omega
      | ⟨1, _⟩ => show l.val = 0 + l.val; omega
      | ⟨2, _⟩ => rfl)
  show Ideal.cmp .ogt _ _ = _
  rw [hcnt]
  show BitVec.ofBool (decide (Ideal.ofBits .f32 0x00000000#32 < countsK J (ix3 b l (0 : Fin 128)))) = _
  rw [Ideal.ofBits_zero_f32]
  unfold countsK maskOf
  by_cases h : ∃ s : Fin 4096, J (ix2 b s) = BitVec.ofNat 32 l.val
  · rw [if_pos h, decide_eq_true ((sum_boole_pos _).mpr h)]; rfl
  · rw [if_neg h, decide_eq_false (fun hh => h ((sum_boole_pos _).mp hh))]; rfl

end Cert.Pool

end
-- ==== Proof.KRun.lean ====
/-
  The pooling kernel's program, run and read: where every segment id lies in `[0, 256)`, the pooled result ends at the
  scaled segment sums and the mask at "some patch of the batch has the id", of the launch contents of the arguments.
-/
import proofs.«425512_j57775900066507_3_alg».proof.Proof.KBlocks
import proofs.«425512_j57775900066507_3_alg».proof.Proof.KHost
import proofs.«425512_j57775900066507_3_alg».proof.Proof.Bridge

noncomputable section

namespace Cert.KernelIdeal.PoolRun

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The run of the kernel's program at the extended reals, its two results named. -/
theorem run (hJ : ∀ c : Dev nD, Cert.Pool.InRange (Cert.Pool.segIds (m ((c.tc : Thread nD τ).loc main_arg1)))) :
    θ_run (defs (F := Ideal)) (onTc (τ := τ) (main (F := Ideal))) ⟨m, fun _ => 0, ρ⟩ (fun r => ∀ c : Dev nD,
      r.2.mem ((c.tc : Thread nD τ).loc main_v18_0)
        = Cert.Pool.pooledK (m ((c.tc : Thread nD τ).loc main_arg0)) (Cert.Pool.segIds (m ((c.tc : Thread nD τ).loc main_arg1)))
      ∧ r.2.mem ((c.tc : Thread nD τ).loc main_v22)
        = Cert.Pool.maskOf (Cert.Pool.segIds (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨?_, ?_, ?_, ?_, ?_⟩) (run_main m ρ)
  · refine ((h c).1 2).trans ((Cert.KernelIdeal.PoolBlocks.final2 m c).trans ?_)
    rw [Cert.KernelIdeal.PoolHost.clip_eq m c (hJ c), V_main_arg0]
  · refine ((h c).2 main_v22 (Pipeline.mem_restRefs_of main_v22 (by decide) (by decide))).trans ?_
    rw [Cert.KernelIdeal.PoolHost.tail_eq m c, Cert.KernelIdeal.PoolBlocks.final3 m c,
      Cert.KernelIdeal.PoolHost.clip_eq m c (hJ c)]
    exact Cert.Pool.maskTerm_countsK _
  · exact ((h c).1 1).trans (((dats m 0 c).arrAt_in 1 rfl _).trans ((A_eq m c 1).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.PoolRun

end
-- ==== Proof.RRun.lean ====
/-
  The reference program's run, read back.

  The reference is a straight line of host operations (two of them calls of the floor division): every weakly fair execution
  ends with each buffer at the composition of the operations that lead to it. Its first part computes every patch's segment id
  exactly as the specification does; the pooled result and the mask are then the two scatters of the specification.
-/
import proofs.«425512_j57775900066507_3_alg».proof.Defs
import proofs.«425512_j57775900066507_3_alg».proof.Proof.Gen.ReferenceIdeal
import proofs.«425512_j57775900066507_3_alg».proof.Proof.Spec
import Idealize.ShloMosaic.Lib.StableHlo.Run
import Idealize.ShloMosaic.Lib.Tactic

noncomputable section

namespace Cert.ReferenceIdeal.PoolRun

open Idealize.ShloMosaic Idealize.ShloMosaic.TcCoe Idealize.SL.Sem Idealize.ShloMosaic.StableHlo
open Cert.ReferenceIdeal Cert.ReferenceIdeal.Gen

variable {F : FTy → Type} [FloatOps F]

/-- The reference's 84 operations, in order: the body of each floor division written out at its call, over that call's
    buffers, the selection it ends with writing the call's result. -/
abbrev ops : List (HloOp τ sig (Elt F)) :=
  [ StableHlo.nullary main_c (constantI S_ 32 0#32),
    StableHlo.unary main_c main_v0 (broadcastInDim S8x4096x2 ![] bcast_S_S8x4096x2 : (⟨S_, .i32⟩ : BufTy).Contents (Elt F) → (⟨S8x4096x2, .i32⟩ : BufTy).Contents (Elt F)),
    StableHlo.binary main_arg1 main_v0 main_v1 (maxsi : (⟨S8x4096x2, .i32⟩ : BufTy).Contents (Elt F) → (⟨S8x4096x2, .i32⟩ : BufTy).Contents (Elt F) → (⟨S8x4096x2, .i32⟩ : BufTy).Contents (Elt F)),
    StableHlo.unary main_v1 main_v2 ((extractStridedSlice S8x4096x1 ![0, 0, 0] · slices_S8x4096x2_S8x4096x1_0_0_0) : (⟨S8x4096x2, .i32⟩ : BufTy).Contents (Elt F) → (⟨S8x4096x1, .i32⟩ : BufTy).Contents (Elt F)),
    StableHlo.reshape main_v2 main_v3 rfl shapeCasts_S8x4096x1_S8x4096,
    StableHlo.nullary main_c_0 (constantI S_ 32 2147483648#32),
    StableHlo.binary main_v3 main_c_0 main_v4 ((fun x v => Host.reduce IntOp.maxsi x v reducesTo_S8x4096_S8_d1 h_S_) : (⟨S8x4096, .i32⟩ : BufTy).Contents (Elt F) → (⟨S_, .i32⟩ : BufTy).Contents (Elt F) → (⟨S8, .i32⟩ : BufTy).Contents (Elt F)),
    StableHlo.unary main_v4 main_v5 (broadcastInDim S8x1 ![0] bcast_S8_S8x1_0 : (⟨S8, .i32⟩ : BufTy).Contents (Elt F) → (⟨S8x1, .i32⟩ : BufTy).Contents (Elt F)),
    StableHlo.nullary main_c_1 (constantI S_ 32 1#32),
    StableHlo.unary main_c_1 main_v6 (broadcastInDim S8x1 ![] bcast_S_S8x1 : (⟨S_, .i32⟩ : BufTy).Contents (Elt F) → (⟨S8x1, .i32⟩ : BufTy).Contents (Elt F)),
    StableHlo.binary main_v5 main_v6 main_v7 (addi : (⟨S8x1, .i32⟩ : BufTy).Contents (Elt F) → (⟨S8x1, .i32⟩ : BufTy).Contents (Elt F) → (⟨S8x1, .i32⟩ : BufTy).Contents (Elt F)),
    StableHlo.nullary main_c_2 (constantI S_ 32 4#32),
    StableHlo.TRef.unary (.of main_c_2 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8x4096x2, .i32⟩) (broadcastInDim S8x4096x2 ![] bcast_S_S8x4096x2),
    StableHlo.TRef.binary (.of main_v1 : StableHlo.TRef sig ⟨S8x4096x2, .i32⟩) (.of main_call0_v1 : StableHlo.TRef sig ⟨S8x4096x2, .i32⟩) (.of main_call0_v2 : StableHlo.TRef sig ⟨S8x4096x2, .i32⟩) Host.divsi,
    StableHlo.TRef.unary (.of main_v1 : StableHlo.TRef sig ⟨S8x4096x2, .i32⟩) (.of main_call0_v3 : StableHlo.TRef sig ⟨S8x4096x2, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8x4096x2, .i32⟩) (broadcastInDim S8x4096x2 ![] bcast_S_S8x4096x2),
    StableHlo.TRef.binary (.of main_call0_v3 : StableHlo.TRef sig ⟨S8x4096x2, .i32⟩) (.of main_call0_v5 : StableHlo.TRef sig ⟨S8x4096x2, .i32⟩) (.of main_call0_v6 : StableHlo.TRef sig ⟨S8x4096x2, .i1⟩) (cmpi .ne),
    StableHlo.TRef.unary (.of main_call0_v0 : StableHlo.TRef sig ⟨S_, .i32⟩) (.of main_call0_v7 : StableHlo.TRef sig ⟨S8x4096x2, .i32⟩) (broadcastInDim S8x4096x2 ![] bcast_S_S8x4096x2),
    StableHlo.TRef.binary (.of main_v1 : StableHlo.TRef sig ⟨S8x4096x2, .i32⟩) (.of main_call0_v7 : StableHlo.TRef sig ⟨S8x4096x2, .i32⟩) (.of main_call0_v8 : StableHlo.TRef sig ⟨S8x4096x2, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8x4096x2, .i32⟩) (broadcastInDim S8x4096x2 ![] bcast_S_S8x4096x2),
    StableHlo.TRef.binary (.of main_call0_v8 : StableHlo.TRef sig ⟨S8x4096x2, .i32⟩) (.of main_call0_v9 : StableHlo.TRef sig ⟨S8x4096x2, .i32⟩) (.of main_call0_v10 : StableHlo.TRef sig ⟨S8x4096x2, .i1⟩) (cmpi .ne),
    StableHlo.TRef.binary (.of main_call0_v6 : StableHlo.TRef sig ⟨S8x4096x2, .i1⟩) (.of main_call0_v10 : StableHlo.TRef sig ⟨S8x4096x2, .i1⟩) (.of main_call0_v11 : StableHlo.TRef sig ⟨S8x4096x2, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8x4096x2, .i32⟩) (broadcastInDim S8x4096x2 ![] bcast_S_S8x4096x2),
    StableHlo.TRef.binary (.of main_call0_v2 : StableHlo.TRef sig ⟨S8x4096x2, .i32⟩) (.of main_call0_v12 : StableHlo.TRef sig ⟨S8x4096x2, .i32⟩) (.of main_call0_v13 : StableHlo.TRef sig ⟨S8x4096x2, .i32⟩) subi,
    StableHlo.TRef.ternary (.of main_call0_v11 : StableHlo.TRef sig ⟨S8x4096x2, .i1⟩) (.of main_call0_v13 : StableHlo.TRef sig ⟨S8x4096x2, .i32⟩) (.of main_call0_v2 : StableHlo.TRef sig ⟨S8x4096x2, .i32⟩) (.of main_v8 : StableHlo.TRef sig ⟨S8x4096x2, .i32⟩) select,
    StableHlo.unary main_v8 main_v9 ((extractStridedSlice S8x4096x1 ![0, 0, 0] · slices_S8x4096x2_S8x4096x1_0_0_0) : (⟨S8x4096x2, .i32⟩ : BufTy).Contents (Elt F) → (⟨S8x4096x1, .i32⟩ : BufTy).Contents (Elt F)),
    StableHlo.reshape main_v9 main_v10 rfl shapeCasts_S8x4096x1_S8x4096,
    StableHlo.nullary main_c_3 (constantI S_ 32 4#32),
    StableHlo.TRef.unary (.of main_c_3 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S8x1, .i32⟩) (broadcastInDim S8x1 ![] bcast_S_S8x1),
    StableHlo.TRef.binary (.of main_v7 : StableHlo.TRef sig ⟨S8x1, .i32⟩) (.of main_call1_v1 : StableHlo.TRef sig ⟨S8x1, .i32⟩) (.of main_call1_v2 : StableHlo.TRef sig ⟨S8x1, .i32⟩) Host.divsi,
    StableHlo.TRef.unary (.of main_v7 : StableHlo.TRef sig ⟨S8x1, .i32⟩) (.of main_call1_v3 : StableHlo.TRef sig ⟨S8x1, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S8x1, .i32⟩) (broadcastInDim S8x1 ![] bcast_S_S8x1),
    StableHlo.TRef.binary (.of main_call1_v3 : StableHlo.TRef sig ⟨S8x1, .i32⟩) (.of main_call1_v5 : StableHlo.TRef sig ⟨S8x1, .i32⟩) (.of main_call1_v6 : StableHlo.TRef sig ⟨S8x1, .i1⟩) (cmpi .ne),
    StableHlo.TRef.unary (.of main_call1_v0 : StableHlo.TRef sig ⟨S_, .i32⟩) (.of main_call1_v7 : StableHlo.TRef sig ⟨S8x1, .i32⟩) (broadcastInDim S8x1 ![] bcast_S_S8x1),
    StableHlo.TRef.binary (.of main_v7 : StableHlo.TRef sig ⟨S8x1, .i32⟩) (.of main_call1_v7 : StableHlo.TRef sig ⟨S8x1, .i32⟩) (.of main_call1_v8 : StableHlo.TRef sig ⟨S8x1, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S8x1, .i32⟩) (broadcastInDim S8x1 ![] bcast_S_S8x1),
    StableHlo.TRef.binary (.of main_call1_v8 : StableHlo.TRef sig ⟨S8x1, .i32⟩) (.of main_call1_v9 : StableHlo.TRef sig ⟨S8x1, .i32⟩) (.of main_call1_v10 : StableHlo.TRef sig ⟨S8x1, .i1⟩) (cmpi .ne),
    StableHlo.TRef.binary (.of main_call1_v6 : StableHlo.TRef sig ⟨S8x1, .i1⟩) (.of main_call1_v10 : StableHlo.TRef sig ⟨S8x1, .i1⟩) (.of main_call1_v11 : StableHlo.TRef sig ⟨S8x1, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S8x1, .i32⟩) (broadcastInDim S8x1 ![] bcast_S_S8x1),
    StableHlo.TRef.binary (.of main_call1_v2 : StableHlo.TRef sig ⟨S8x1, .i32⟩) (.of main_call1_v12 : StableHlo.TRef sig ⟨S8x1, .i32⟩) (.of main_call1_v13 : StableHlo.TRef sig ⟨S8x1, .i32⟩) subi,
    StableHlo.TRef.ternary (.of main_call1_v11 : StableHlo.TRef sig ⟨S8x1, .i1⟩) (.of main_call1_v13 : StableHlo.TRef sig ⟨S8x1, .i32⟩) (.of main_call1_v2 : StableHlo.TRef sig ⟨S8x1, .i32⟩) (.of main_v11 : StableHlo.TRef sig ⟨S8x1, .i32⟩) select,
    StableHlo.unary main_v8 main_v12 ((extractStridedSlice S8x4096x1 ![0, 0, 1] · slices_S8x4096x2_S8x4096x1_0_0_1) : (⟨S8x4096x2, .i32⟩ : BufTy).Contents (Elt F) → (⟨S8x4096x1, .i32⟩ : BufTy).Contents (Elt F)),
    StableHlo.reshape main_v12 main_v13 rfl shapeCasts_S8x4096x1_S8x4096,
    StableHlo.unary main_v11 main_v14 (broadcastInDim S8x4096 ![0, 1] bcast_S8x1_S8x4096_0_1 : (⟨S8x1, .i32⟩ : BufTy).Contents (Elt F) → (⟨S8x4096, .i32⟩ : BufTy).Contents (Elt F)),
    StableHlo.binary main_v14 main_v13 main_v15 (muli : (⟨S8x4096, .i32⟩ : BufTy).Contents (Elt F) → (⟨S8x4096, .i32⟩ : BufTy).Contents (Elt F) → (⟨S8x4096, .i32⟩ : BufTy).Contents (Elt F)),
    StableHlo.binary main_v10 main_v15 main_v16 (addi : (⟨S8x4096, .i32⟩ : BufTy).Contents (Elt F) → (⟨S8x4096, .i32⟩ : BufTy).Contents (Elt F) → (⟨S8x4096, .i32⟩ : BufTy).Contents (Elt F)),
    StableHlo.nullary main_v17 (iotaInDim S8 32 0),
    StableHlo.unary main_v17 main_v18 (broadcastInDim S8x1 ![0] bcast_S8_S8x1_0 : (⟨S8, .i32⟩ : BufTy).Contents (Elt F) → (⟨S8x1, .i32⟩ : BufTy).Contents (Elt F)),
    StableHlo.nullary main_c_4 (constantI S_ 32 256#32),
    StableHlo.unary main_c_4 main_v19 (broadcastInDim S8x1 ![] bcast_S_S8x1 : (⟨S_, .i32⟩ : BufTy).Contents (Elt F) → (⟨S8x1, .i32⟩ : BufTy).Contents (Elt F)),
    StableHlo.binary main_v19 main_v18 main_v20 (muli : (⟨S8x1, .i32⟩ : BufTy).Contents (Elt F) → (⟨S8x1, .i32⟩ : BufTy).Contents (Elt F) → (⟨S8x1, .i32⟩ : BufTy).Contents (Elt F)),
    StableHlo.unary main_v20 main_v21 (broadcastInDim S8x4096 ![0, 1] bcast_S8x1_S8x4096_0_1 : (⟨S8x1, .i32⟩ : BufTy).Contents (Elt F) → (⟨S8x4096, .i32⟩ : BufTy).Contents (Elt F)),
    StableHlo.binary main_v16 main_v21 main_v22 (addi : (⟨S8x4096, .i32⟩ : BufTy).Contents (Elt F) → (⟨S8x4096, .i32⟩ : BufTy).Contents (Elt F) → (⟨S8x4096, .i32⟩ : BufTy).Contents (Elt F)),
    StableHlo.reshape main_v22 main_v23 rfl shapeCasts_S8x4096_S32768,
    StableHlo.reshape main_arg0 main_v24 rfl shapeCasts_S8x4096x1152_S32768x1152,
    StableHlo.nullary main_cst (constant S_ .f32 0x00000000#32),
    StableHlo.unary main_cst main_v25 (broadcastInDim S2048x1152 ![] bcast_S_S2048x1152 : (⟨S_, .f32⟩ : BufTy).Contents (Elt F) → (⟨S2048x1152, .f32⟩ : BufTy).Contents (Elt F)),
    StableHlo.unary main_v23 main_v26 (broadcastInDim S32768x1 ![0] bcast_S32768_S32768x1_0 : (⟨S32768, .i32⟩ : BufTy).Contents (Elt F) → (⟨S32768x1, .i32⟩ : BufTy).Contents (Elt F)),
    StableHlo.ternary main_v25 main_v26 main_v24 main_v27 ((fun x i u => Host.scatterAdd scatter_S2048x1152_S32768x1_S32768x1152_1_0_0_1 x i u) : (⟨S2048x1152, .f32⟩ : BufTy).Contents (Elt F) → (⟨S32768x1, .i32⟩ : BufTy).Contents (Elt F) → (⟨S32768x1152, .f32⟩ : BufTy).Contents (Elt F) → (⟨S2048x1152, .f32⟩ : BufTy).Contents (Elt F)),
    StableHlo.reshape main_v27 main_v28 rfl shapeCasts_S2048x1152_S8x256x1152,
    StableHlo.nullary main_cst_5 (constant S_ .f32 0x41800000#32),
    StableHlo.unary main_cst_5 main_v29 (broadcastInDim S8x256x1152 ![] bcast_S_S8x256x1152 : (⟨S_, .f32⟩ : BufTy).Contents (Elt F) → (⟨S8x256x1152, .f32⟩ : BufTy).Contents (Elt F)),
    StableHlo.binary main_v28 main_v29 main_v30 (Host.divf : (⟨S8x256x1152, .f32⟩ : BufTy).Contents (Elt F) → (⟨S8x256x1152, .f32⟩ : BufTy).Contents (Elt F) → (⟨S8x256x1152, .f32⟩ : BufTy).Contents (Elt F)),
    StableHlo.nullary main_c_6 (constantI S_ 32 1#32),
    StableHlo.unary main_c_6 main_v31 (broadcastInDim S32768 ![] bcast_S_S32768 : (⟨S_, .i32⟩ : BufTy).Contents (Elt F) → (⟨S32768, .i32⟩ : BufTy).Contents (Elt F)),
    StableHlo.nullary main_c_7 (constantI S_ 32 0#32),
    StableHlo.unary main_c_7 main_v32 (broadcastInDim S2048 ![] bcast_S_S2048 : (⟨S_, .i32⟩ : BufTy).Contents (Elt F) → (⟨S2048, .i32⟩ : BufTy).Contents (Elt F)),
    StableHlo.unary main_v23 main_v33 (broadcastInDim S32768x1 ![0] bcast_S32768_S32768x1_0 : (⟨S32768, .i32⟩ : BufTy).Contents (Elt F) → (⟨S32768x1, .i32⟩ : BufTy).Contents (Elt F)),
    StableHlo.ternary main_v32 main_v33 main_v31 main_v34 ((fun x i u => Host.scatter scatter_S2048_S32768x1_S32768_n_0_0_1 IntOp.addi x i u) : (⟨S2048, .i32⟩ : BufTy).Contents (Elt F) → (⟨S32768x1, .i32⟩ : BufTy).Contents (Elt F) → (⟨S32768, .i32⟩ : BufTy).Contents (Elt F) → (⟨S2048, .i32⟩ : BufTy).Contents (Elt F)),
    StableHlo.reshape main_v34 main_v35 rfl shapeCasts_S2048_S8x256,
    StableHlo.nullary main_c_8 (constantI S_ 32 0#32),
    StableHlo.unary main_c_8 main_v36 (broadcastInDim S8x256 ![] bcast_S_S8x256 : (⟨S_, .i32⟩ : BufTy).Contents (Elt F) → (⟨S8x256, .i32⟩ : BufTy).Contents (Elt F)),
    StableHlo.binary main_v35 main_v36 main_v37 (cmpi .sgt : (⟨S8x256, .i32⟩ : BufTy).Contents (Elt F) → (⟨S8x256, .i32⟩ : BufTy).Contents (Elt F) → (⟨S8x256, .i1⟩ : BufTy).Contents (Elt F)),
    StableHlo.nullary main_cst_9 (constant S_ .f32 0x4207C3B6#32),
    StableHlo.unary main_cst_9 main_v38 (broadcastInDim S8x256x1152 ![] bcast_S_S8x256x1152 : (⟨S_, .f32⟩ : BufTy).Contents (Elt F) → (⟨S8x256x1152, .f32⟩ : BufTy).Contents (Elt F)),
    StableHlo.binary main_v30 main_v38 main_v39 (mulf : (⟨S8x256x1152, .f32⟩ : BufTy).Contents (Elt F) → (⟨S8x256x1152, .f32⟩ : BufTy).Contents (Elt F) → (⟨S8x256x1152, .f32⟩ : BufTy).Contents (Elt F)) ]

set_option maxRecDepth 8192 in
/-- The program is that straight line: the called functions unfolded at their calls and sequencing reassociated, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., reshape_bufs_sub .., nullary_bufs_sub .., binary_bufs_sub .., unary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., reshape_bufs_sub .., unary_bufs_sub .., binary_bufs_sub .., binary_bufs_sub .., nullary_bufs_sub .., unary_bufs_sub .., nullary_bufs_sub .., unary_bufs_sub .., binary_bufs_sub .., unary_bufs_sub .., binary_bufs_sub .., reshape_bufs_sub .., reshape_bufs_sub .., nullary_bufs_sub .., unary_bufs_sub .., unary_bufs_sub .., ternary_bufs_sub .., reshape_bufs_sub .., nullary_bufs_sub .., unary_bufs_sub .., binary_bufs_sub .., nullary_bufs_sub .., unary_bufs_sub .., nullary_bufs_sub .., unary_bufs_sub .., unary_bufs_sub .., ternary_bufs_sub .., reshape_bufs_sub .., nullary_bufs_sub .., unary_bufs_sub .., binary_bufs_sub .., nullary_bufs_sub .., unary_bufs_sub .., binary_bufs_sub ..⟩

attribute [local irreducible] Host.reduce Host.scatter Host.scatterAdd

set_option maxRecDepth 8192 in
set_option maxHeartbeats 1000000 in
/-- The pooled result after the operations is the specification's host term of the two arguments: the composition of the
    operations that lead to it, the typed references' transports the identity at these references, is that term as written. -/
theorem v39_eq (V : Valuation τ sig (Elt F)) :
    after ops V (main_v39 : DevRef τ sig)
      = Cert.Pool.refPooled (F := F) (V (main_arg0 : DevRef τ sig)) (Cert.Pool.segIds (V (main_arg1 : DevRef τ sig))) := by
  after_results_simp
  simp only [TRef.ofBuf, TRef.toBuf, cast_eq]
  rfl

set_option maxRecDepth 8192 in
set_option maxHeartbeats 1000000 in
/-- The mask after the operations is the specification's host term of the patch coordinates. -/
theorem v37_eq (V : Valuation τ sig (Elt F)) :
    after ops V (main_v37 : DevRef τ sig) = Cert.Pool.refMask (Cert.Pool.segIds (V (main_arg1 : DevRef τ sig))) := by
  after_results_simp
  simp only [TRef.ofBuf, TRef.toBuf, cast_eq]
  rfl

set_option maxHeartbeats 1000000 in
/-- No operation writes the first argument. -/
theorem arg0_eq (V : Valuation τ sig (Elt F)) : after ops V (main_arg0 : DevRef τ sig) = V (main_arg0 : DevRef τ sig) := by
  after_results_simp

set_option maxHeartbeats 1000000 in
/-- No operation writes the second argument. -/
theorem arg1_eq (V : Valuation τ sig (Elt F)) : after ops V (main_arg1 : DevRef τ sig) = V (main_arg1 : DevRef τ sig) := by
  after_results_simp

set_option maxHeartbeats 1000000 in
/-- No operation writes the third argument. -/
theorem arg2_eq (V : Valuation τ sig (Elt F)) : after ops V (main_arg2 : DevRef τ sig) = V (main_arg2 : DevRef τ sig) := by
  after_results_simp

/-- Every weakly fair execution of the reference terminates with each TensorCore buffer at the fold of the operations over the
    launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference terminates, the pooled result and the mask at the specification's host terms
    of the launch contents of the arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v39)
        = Cert.Pool.refPooled (F := F) (m ((c.tc : Thread nD τ).loc main_arg0)) (Cert.Pool.segIds (m ((c.tc : Thread nD τ).loc main_arg1)))
      ∧ r.2.mem ((c.tc : Thread nD τ).loc main_v37)
        = Cert.Pool.refMask (Cert.Pool.segIds (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c => ⟨(h c main_v39).trans (v39_eq _), (h c main_v37).trans (v37_eq _),
      (h c main_arg0).trans (arg0_eq _), (h c main_arg1).trans (arg1_eq _), (h c main_arg2).trans (arg2_eq _)⟩)
    (run_main m ρ)

end Cert.ReferenceIdeal.PoolRun

end
-- ==== Proof.RSeg.lean ====
/-
  The reference's flat segment numbers, read entry by entry.

  Patch `s` of batch `b` sits in row `4096 · b + s` of the flattened arrays, and its flat segment number is `J (b, s) + 256 · b`
  in 32-bit words; with `J (b, s)` in `[0, 256)` that is the integer `256 · b + J (b, s)`, below 2048: no wrap.
-/
import proofs.«425512_j57775900066507_3_alg».proof.Proof.Spec
import Idealize.ShloMosaic.Lib.ValueIdx
import Idealize.ShloMosaic.Lib.ValueLayout
import Idealize.ShloMosaic.Lib.Pipeline.Value

noncomputable section

namespace Cert.Pool

open Idealize.ShloMosaic Idealize.ShloMosaic.ValueIdx

/-- Row `4096 · b + s` of the flattened patch arrays. -/
def flatRow (b : Fin 8) (s : Fin 4096) : Fin 32768 := ⟨4096 * b.val + s.val, by have := b.isLt; have := s.isLt; omega⟩

/-- Every row of the flattened arrays is one patch of one batch. -/
theorem flatRow_surj (n : Fin 32768) : ∃ (b : Fin 8) (s : Fin 4096), n = flatRow b s :=
  ⟨⟨n.val / 4096, by have := n.isLt; omega⟩, ⟨n.val % 4096, Nat.mod_lt _ (by decide)⟩, Fin.ext (by simp only [flatRow]; omega)⟩

theorem flatRow_inj {b b' : Fin 8} {s s' : Fin 4096} (h : flatRow b s = flatRow b' s') : b = b' ∧ s = s' := by
  have := congrArg Fin.val h
  simp only [flatRow] at this
  have hs := s.isLt; have hs' := s'.isLt
  exact ⟨Fin.ext (by omega), Fin.ext (by omega)⟩

/-- The flat segment number of patch `(b, s)` as a word: the id plus `256 · b`. -/
theorem refSeg_apply (J : IVec S8x4096 32) (b : Fin 8) (s : Fin 4096) :
    refSeg J (ix2 (flatRow b s) (0 : Fin 1)) = J (ix2 b s) + 256#32 * BitVec.ofNat 32 b.val := by
  unfold refSeg
  -- the column reads the vector at its row
  rw [broadcastInDim_apply _ _ _ (ix2 (flatRow b s) (0 : Fin 1)) (ix1 (flatRow b s)) (by
    intro a
    match a with
    | ⟨0, _⟩ => rfl)]
  -- row `4096 · b + s` of the flattened array is the entry `(b, s)`
  rw [shapeCast_apply _ _ (ix1 (flatRow b s)) (ix2 b s) (by
    rw [Shape.rowMajor_val_two, Shape.rowMajor_val_one]
    show b.val * 4096 + s.val = 4096 * b.val + s.val
    omega)]
  -- the batch offset is constant along each row: the word `256` times the batch number
  rfl

/-- The flat segment number of patch `(b, s)`, read signed: `256 · b + J (b, s)`, where the id is in range. -/
theorem refSeg_toInt (J : IVec S8x4096 32) (hJ : InRange J) (b : Fin 8) (s : Fin 4096) :
    (refSeg J (ix2 (flatRow b s) (0 : Fin 1))).toInt = 256 * (b.val : Int) + (J (ix2 b s)).toInt := by
  have hb := b.isLt
  obtain ⟨h0, h1⟩ := hJ (ix2 b s)
  rw [refSeg_apply J b s]
  generalize J (ix2 b s) = w at h0 h1 ⊢
  have hw : w.toNat < 256 := by
    rw [BitVec.toInt_eq_toNat_cond] at h0 h1
    have := w.isLt
    split at h0 <;> omega
  have hwi : w.toInt = (w.toNat : Int) := by
    rw [BitVec.toInt_eq_toNat_cond]
    have := w.isLt
    split <;> omega
  have hN : (w + 256#32 * BitVec.ofNat 32 b.val).toNat = w.toNat + 256 * b.val := by
    rw [BitVec.toNat_add, BitVec.toNat_mul, BitVec.toNat_ofNat]
    show (w.toNat + 256 * (b.val % 2 ^ 32) % 2 ^ 32) % 2 ^ 32 = _
    omega
  rw [BitVec.toInt_eq_toNat_cond, hN, hwi]
  split <;> omega

end Cert.Pool

end
-- ==== Proof.RValue.lean ====
/-
  The reference's row scatter, read entry by entry.

  With every segment id `J (b, s)` in `[0, 256)`, the flat segment number `J (b, s) + 256 · b` of patch `(b, s)` is below 2048 and
  names the pair `(b, J (b, s))` uniquely. So row `256 · b + l` of the row scatter collects exactly the hidden rows of batch `b`'s
  patches with id `l`.
-/
import proofs.«425512_j57775900066507_3_alg».proof.Proof.RSeg
import Idealize.ShloMosaic.Lib.ValueIdx
import Idealize.ShloMosaic.Lib.ValueLayout
import Idealize.ShloMosaic.Lib.Pipeline.Value
import Idealize.ShloMosaic.PureOps.Ideal.Laws

noncomputable section

namespace Cert.Pool

open Idealize.ShloMosaic Idealize.ShloMosaic.ValueIdx

/-! ## The row scatter's dimension numbers, read at an update index -/

/-- Update index `j` reads its start index at row `j 0` of the one-column index array. -/
private theorem rowScatter_siIdx (j : S32768x1152.Idx) (c : Fin rowScatter.scatterDimsToOperandDims.length) :
    rowScatter.siIdx j c = ix2 (j 0) (0 : Fin 1) := by
  funext b
  match b with
  | ⟨0, _⟩ => rfl
  | ⟨1, _⟩ => exact Fin.ext (by have := c.isLt; simp [rowScatter] at this; simp [ScatterDims.siIdx]; omega)

/-- On the row axis the window starts at the signed index word of row `j 0`. -/
private theorem rowScatter_start0 {w : Nat} (j : S32768x1152.Idx) (idx : IVec S32768x1 w) :
    rowScatter.start j idx 0 = (idx (ix2 (j 0) (0 : Fin 1))).toInt := by
  unfold ScatterDims.start
  rw [dif_pos (by decide), rowScatter_siIdx]
  rfl

/-- On the column axis the window starts at zero. -/
private theorem rowScatter_start1 {w : Nat} (j : S32768x1152.Idx) (idx : IVec S32768x1 w) :
    rowScatter.start j idx 1 = 0 := by
  unfold ScatterDims.start
  rw [dif_neg (by decide)]

/-- The row axis is an inserted axis: its window coordinate is zero. -/
private theorem rowScatter_window0 (j : S32768x1152.Idx) : rowScatter.window j 0 = 0 := by
  unfold ScatterDims.window
  rw [dif_neg (by decide)]

/-- The column axis carries the update's column. -/
private theorem rowScatter_window1 (j : S32768x1152.Idx) : rowScatter.window j 1 = (j 1).val := by
  unfold ScatterDims.window
  rw [dif_pos (by decide)]
  rfl

/-- Update `j` lands at operand entry `i` exactly when the signed index word of its row is `i`'s row and the columns agree. -/
private theorem rowScatter_resultIdx_iff {w : Nat} (j : S32768x1152.Idx) (idx : IVec S32768x1 w) (i : S2048x1152.Idx) :
    rowScatter.resultIdx? j idx = some i ↔ (idx (ix2 (j 0) (0 : Fin 1))).toInt = ((i 0).val : Int) ∧ (j 1).val = (i 1).val := by
  have hi0 := idx2_lt0 i
  have hi1 := idx2_lt1 i
  have hj1 := idx2_lt1 j
  unfold ScatterDims.resultIdx?
  constructor
  · intro h
    split at h
    · rename_i hall
      have := Option.some.inj h
      subst this
      simp only [rowScatter_start0, rowScatter_start1, rowScatter_window0, rowScatter_window1]
      have h0 := hall 0
      rw [rowScatter_start0, rowScatter_window0] at h0
      constructor
      · simp only [Nat.cast_zero, add_zero]
        omega
      · simp
    · exact absurd h (by simp)
  · rintro ⟨h0, h1⟩
    have hall : ∀ a, 0 ≤ rowScatter.start j idx a + rowScatter.window j a ∧ rowScatter.start j idx a + rowScatter.window j a < S2048x1152.size a := by
      intro a
      match a with
      | ⟨0, _⟩ =>
        show 0 ≤ rowScatter.start j idx 0 + rowScatter.window j 0 ∧ rowScatter.start j idx 0 + rowScatter.window j 0 < 2048
        rw [rowScatter_start0, rowScatter_window0, h0]
        constructor <;> omega
      | ⟨1, _⟩ =>
        show 0 ≤ rowScatter.start j idx 1 + rowScatter.window j 1 ∧ rowScatter.start j idx 1 + rowScatter.window j 1 < 1152
        rw [rowScatter_start1, rowScatter_window1]
        constructor <;> omega
    rw [dif_pos hall]
    congr 1
    funext a
    match a with
    | ⟨0, _⟩ =>
      apply Fin.ext
      show (rowScatter.start j idx 0 + rowScatter.window j 0).toNat = (i 0).val
      rw [rowScatter_start0, rowScatter_window0, h0]
      simp
    | ⟨1, _⟩ =>
      apply Fin.ext
      show (rowScatter.start j idx 1 + rowScatter.window j 1).toNat = (i 1).val
      rw [rowScatter_start1, rowScatter_window1]
      simp [h1]

/-! ## The two reshapes and the splat constants, read at an index -/

/-- Row `256 · b + l` of the flat pooled rows. -/
private def poolRow (b : Fin 8) (l : Fin 256) : Fin 2048 := ⟨256 * b.val + l.val, by have := b.isLt; have := l.isLt; omega⟩

/-- The pooled rows laid out per batch: entry `(b, l, h)` is entry `(256 · b + l, h)` of the flat rows. -/
private theorem reshape_pooled {α : Type} (A : S2048x1152.Idx → α) (h : S2048x1152.ShapeCasts S8x256x1152) (i : S8x256x1152.Idx) :
    shapeCast S8x256x1152 A h i = A (ix2 (poolRow (i 0) (i 1)) (i 2)) := by
  apply shapeCast_apply
  rw [Shape.rowMajor_val_two, Shape.rowMajor_val_three]
  show (poolRow (i 0) (i 1)).val * 1152 + (i 2).val = ((i 0).val * 256 + (i 1).val) * 1152 + (i 2).val
  simp only [poolRow]
  omega

/-- The hidden rows flattened: entry `(4096 · b + s, c)` is entry `(b, s, c)`. -/
private theorem reshape_hidden {α : Type} (x : S8x4096x1152.Idx → α) (h : S8x4096x1152.ShapeCasts S32768x1152) (b : Fin 8) (s : Fin 4096) (c : Fin 1152) :
    shapeCast S32768x1152 x h (ix2 (flatRow b s) c) = x (ix3 b s c) := by
  apply shapeCast_apply
  rw [Shape.rowMajor_val_two, Shape.rowMajor_val_three]
  show ((b.val * 4096 + s.val) * 1152 + c.val) = (flatRow b s).val * 1152 + c.val
  simp only [flatRow]
  omega

/-- The zero rows the scatter adds into are zero at every entry. -/
private theorem bcast_zero (h : S_.BroadcastsInDim S2048x1152 (![] : Fin 0 → Fin 2)) (i : S2048x1152.Idx) :
    broadcastInDim S2048x1152 ![] h (constant (F := Ideal) S_ .f32 0x00000000#32) i = 0 := by
  show Ideal.ofBits .f32 0x00000000#32 = 0
  exact Ideal.ofBits_zero_f32

/-- A splat constant broadcast to the pooled shape reads the extended real its word encodes. -/
private theorem bcast_const (w : BitVec 32) (h : S_.BroadcastsInDim S8x256x1152 (![] : Fin 0 → Fin 3)) (i : S8x256x1152.Idx) :
    broadcastInDim S8x256x1152 ![] h (constant (F := Ideal) S_ .f32 w) i = Ideal.ofBits .f32 w := rfl

/-! ## Sums over the flattened rows -/

/-- The rows of the flattened arrays, as pairs of a batch and a patch. -/
private def flatEquiv : Fin 8 × Fin 4096 ≃ Fin 32768 :=
  Equiv.ofBijective (fun p => flatRow p.1 p.2)
    ⟨fun p q h => by obtain ⟨h1, h2⟩ := flatRow_inj h; exact Prod.ext h1 h2,
     fun n => by obtain ⟨b, s, h⟩ := flatRow_surj n; exact ⟨(b, s), h.symm⟩⟩

/-- A sum over the flattened rows is the double sum over batches and patches. -/
private theorem sum_flat {M : Type} [AddCommMonoid M] (f : Fin 32768 → M) :
    ∑ n, f n = ∑ b : Fin 8, ∑ s : Fin 4096, f (flatRow b s) := by
  rw [← Equiv.sum_comp flatEquiv f, Fintype.sum_prod_type]
  rfl

/-- A sum of terms present only at one index, under a side condition, is that index's term under the condition. -/
private theorem sum_ite_and_eq {ι M : Type} [Fintype ι] [DecidableEq ι] [AddCommMonoid M] (P : Prop) [Decidable P] (h : ι) (f : ι → M) :
    (∑ c, if P ∧ c = h then f c else 0) = if P then f h else 0 := by
  by_cases hP : P <;> simp [hP]

/-- A double sum of terms present only at one outer index is the inner sum at that index. -/
private theorem sum_ite_eq_and {ι κ M : Type} [Fintype ι] [DecidableEq ι] [Fintype κ] [AddCommMonoid M] (Q : ι → κ → Prop) [∀ b s, Decidable (Q b s)]
    (b' : ι) (g : ι → κ → M) :
    (∑ b, ∑ s, if b = b' ∧ Q b s then g b s else 0) = ∑ s, if Q b' s then g b' s else 0 := by
  rw [Finset.sum_eq_single b']
  · simp
  · intro b _ hb
    simp [hb]
  · intro h
    exact absurd (Finset.mem_univ _) h

/-! ## Which updates land on a pooled row -/

/-- A natural number below 256, as a 32-bit word read signed, is itself. -/
private theorem toInt_ofNat_small (l : Nat) (h : l < 256) : (BitVec.ofNat 32 l).toInt = (l : Int) := by
  simp only [BitVec.toInt, BitVec.toNat_ofNat, Nat.reducePow]
  split <;> omega

/-- The flat segment number of patch `(b, s)` is `256 · b' + l` exactly when `b = b'` and the patch's id is `l`. -/
private theorem seg_hit_iff (J : IVec S8x4096 32) (hJ : InRange J) (b b' : Fin 8) (s : Fin 4096) (l : Fin 256) :
    (refSeg J (ix2 (flatRow b s) (0 : Fin 1))).toInt = ((poolRow b' l).val : Int) ↔ b = b' ∧ J (ix2 b s) = BitVec.ofNat 32 l.val := by
  rw [refSeg_toInt J hJ]
  obtain ⟨h0, h1⟩ := hJ (ix2 b s)
  have hl := l.isLt
  have hb := b.isLt
  have hb' := b'.isLt
  simp only [poolRow]
  constructor
  · intro h
    push_cast at h
    refine ⟨Fin.ext (by omega), BitVec.eq_of_toInt_eq ?_⟩
    rw [toInt_ofNat_small _ hl]
    omega
  · rintro ⟨rfl, hq⟩
    rw [hq, toInt_ofNat_small _ hl]
    push_cast
    rfl

/-- The update at `(4096 · b + s, c)` lands on pooled entry `(256 · b' + l, h)` exactly when `b = b'`, the patch's id is `l`, and `c = h`. -/
private theorem hit_iff (J : IVec S8x4096 32) (hJ : InRange J) (b b' : Fin 8) (s : Fin 4096) (l : Fin 256) (c h : Fin 1152) :
    rowScatter.resultIdx? (ix2 (flatRow b s) c) (refSeg J) = some (ix2 (poolRow b' l) h)
      ↔ (b = b' ∧ J (ix2 b s) = BitVec.ofNat 32 l.val) ∧ c = h := by
  rw [rowScatter_resultIdx_iff]
  show (refSeg J (ix2 (flatRow b s) (0 : Fin 1))).toInt = ((poolRow b' l).val : Int) ∧ c.val = h.val ↔ _
  rw [seg_hit_iff J hJ, Fin.val_inj]

/-- The updates landing on pooled entry `(256 · b' + l, h)` sum to the segment sum. -/
private theorem scatter_row (x : S8x4096x1152.Idx → EReal) (J : IVec S8x4096 32) (hJ : InRange J) (hc : S8x4096x1152.ShapeCasts S32768x1152)
    (b' : Fin 8) (l : Fin 256) (h : Fin 1152) :
    (∑ j ∈ Finset.univ.filter (fun j => rowScatter.resultIdx? j (refSeg J) = some (ix2 (poolRow b' l) h)), shapeCast S32768x1152 x hc j)
      = segSum x J b' l h := by
  rw [Finset.sum_filter, sum_idx2, sum_flat]
  simp only [hit_iff J hJ, reshape_hidden]
  simp only [sum_ite_and_eq]
  rw [sum_ite_eq_and (fun b s => J (ix2 b s) = BitVec.ofNat 32 l.val) b' (fun b s => x (ix3 b s h))]
  rfl

/-- The row scatter into zero rows, read at pooled entry `(256 · b' + l, h)`: the segment sum. -/
private theorem scatter_at (x : S8x4096x1152.Idx → EReal) (J : IVec S8x4096 32) (hJ : InRange J)
    (hz : S_.BroadcastsInDim S2048x1152 (![] : Fin 0 → Fin 2)) (hc : S8x4096x1152.ShapeCasts S32768x1152)
    (b' : Fin 8) (l : Fin 256) (h : Fin 1152) :
    Host.scatterAdd rowScatter (broadcastInDim S2048x1152 ![] hz (constant (F := Ideal) S_ .f32 0x00000000#32)) (refSeg J)
      (shapeCast S32768x1152 x hc) (ix2 (poolRow b' l) h) = segSum x J b' l h := by
  show Ideal.hostScatterAdd rowScatter _ (refSeg J) _ _ = _
  unfold Ideal.hostScatterAdd
  rw [bcast_zero, zero_add]
  exact scatter_row x J hJ hc b' l h

/-- Where the ids are in range, the reference's host term for the pooled result is the segment sums over 16, times `√1152`. -/
theorem refPooled_eq (x : S8x4096x1152.Idx → EReal) (J : IVec S8x4096 32) (hJ : InRange J) :
    refPooled (F := Ideal) x J = pooledR x J := by
  funext i
  unfold refPooled pooledR
  rw [mulf_apply, bcast_const]
  unfold Host.divf
  rw [Ideal.hostDivf_def, bcast_const, reshape_pooled]
  exact congrArg (fun t => Ideal.div t (Ideal.ofBits .f32 0x41800000#32) * Ideal.ofBits .f32 0x4207C3B6#32)
    (scatter_at x J hJ _ _ (i 0) (i 1) (i 2))

end Cert.Pool

end
-- ==== Proof.RMask.lean ====
/-
  The reference's scalar scatter, read entry by entry.

  Ones are added, in 32-bit words, at the flat segment numbers into 2048 zero cells. With every id in `[0, 256)` cell
  `256 · b + l` ends at the number of patches of batch `b` with id `l` (at most 4096, so the word is that number and its sign bit
  is clear), which is positive exactly when there is such a patch.
-/
import proofs.«425512_j57775900066507_3_alg».proof.Proof.RSeg

noncomputable section

namespace Cert.Pool

open Idealize.ShloMosaic Idealize.ShloMosaic.ValueIdx

/-- A left fold whose step adds one at the cell its element names (and nothing where it names none) ends, at every cell, at
    the cell's start plus the number of elements that name it. -/
theorem foldl_count {ι κ : Type} [DecidableEq ι] (g : κ → Option ι) (step : (ι → BitVec 32) → κ → ι → BitVec 32)
    (hstep : ∀ r n i, step r n i = r i + if g n = some i then 1#32 else 0#32)
    (l : List κ) (x : ι → BitVec 32) (i : ι) :
    (l.foldl step x) i = x i + BitVec.ofNat 32 (l.countP fun n => g n = some i) := by
  induction l generalizing x with
  | nil => simp
  | cons n l ih =>
    rw [List.foldl_cons, ih, hstep, List.countP_cons]
    by_cases h : g n = some i
    · rw [if_pos h, if_pos (decide_eq_true h), BitVec.ofNat_add, BitVec.add_assoc, BitVec.add_comm 1#32]
    · rw [if_neg h, if_neg (by simpa using h), BitVec.add_zero, Nat.add_zero]

/-- A scatter that adds, in 32-bit words, an update of ones: every cell ends at its start plus the number of updates
    that land on it. -/
theorem scatter_ones_cell {s si u : Shape} {w : Nat} (d : ScatterDims s si u) (x : s.Idx → BitVec 32) (idx : IVec si w)
    (upd : u.Idx → BitVec 32) (hupd : ∀ j, upd j = 1#32) (i : s.Idx) :
    Host.scatter d IntOp.addi x idx upd i
      = x i + BitVec.ofNat 32 ((List.finRange u.numel).countP fun n => d.resultIdx? (u.rowMajor.symm n) idx = some i) := by
  unfold Host.scatter
  refine foldl_count (fun n => d.resultIdx? (u.rowMajor.symm n) idx) _ ?_ _ _ _
  intro r n i'
  cases h : d.resultIdx? (u.rowMajor.symm n) idx with
  | none => simp
  | some i0 =>
    by_cases hi : i' = i0
    · subst hi
      simp [hupd, IntOp.addi]
    · have hi' : ¬ (i0 = i') := fun e => hi e.symm
      simp [hi, hi']

/-- The scalar scatter's start on the one operand axis: the signed word of the index column at the update's row. -/
theorem cellScatter_start (j : S32768.Idx) (idx : IVec S32768x1 32) (a : Fin 1) :
    cellScatter.start j idx a = (idx (ix2 (j 0) (0 : Fin 1))).toInt := by
  have ha : a = 0 := Subsingleton.elim _ _
  subst ha
  unfold ScatterDims.start
  rw [dif_pos (by decide)]
  refine congrArg (fun k => (idx k).toInt) (funext fun b => ?_)
  match b with
  | ⟨0, _⟩ => rfl
  | ⟨1, _⟩ => rfl

/-- The scalar scatter has no window: its one operand axis is inserted. -/
theorem cellScatter_window (j : S32768.Idx) (a : Fin 1) : cellScatter.window j a = 0 := by
  have ha : a = 0 := Subsingleton.elim _ _
  subst ha
  unfold ScatterDims.window
  rw [dif_neg (by decide)]

/-- An update lands on cell `i` exactly when the signed word of the index column at its row is `i`. -/
theorem cellScatter_resultIdx (j : S32768.Idx) (idx : IVec S32768x1 32) (i : S2048.Idx) :
    cellScatter.resultIdx? j idx = some i ↔ (idx (ix2 (j 0) (0 : Fin 1))).toInt = ((i 0).val : Int) := by
  have hst := cellScatter_start j idx
  have hwi := cellScatter_window j
  have hi : (i 0).val < 2048 := (i 0).isLt
  unfold ScatterDims.resultIdx?
  split
  · next h =>
    rw [Option.some.injEq]
    have h0 := h 0
    rw [hst, hwi] at h0
    constructor
    · intro e
      have e0 := congrArg Fin.val (congrFun e 0)
      simp only [hst, hwi] at e0
      omega
    · intro e
      funext a
      have ha : a = 0 := Subsingleton.elim _ _
      subst ha
      apply Fin.ext
      simp only [hst, hwi]
      omega
  · next h =>
    constructor
    · intro e; cases e
    · intro e
      exfalso
      apply h
      intro a
      have ha : a = 0 := Subsingleton.elim _ _
      subst ha
      rw [hst, hwi, e]
      show (0 : Int) ≤ ((i 0).val : Int) + ((0 : Nat) : Int) ∧ ((i 0).val : Int) + ((0 : Nat) : Int) < ((2048 : Nat) : Int)
      omega

/-- A natural number below `2 ^ 31` as a 32-bit word reads, signed, as itself. -/
theorem toInt_ofNat_small (k : Nat) (hk : k < 2 ^ 31) : (BitVec.ofNat 32 k).toInt = (k : Int) := by
  rw [BitVec.toInt_eq_toNat_cond, BitVec.toNat_ofNat]
  have hm : k % 2 ^ 32 = k := Nat.mod_eq_of_lt (by omega)
  rw [hm]
  split <;> omega

/-- A count below `2 ^ 31`, as a word, is greater than zero (signed) exactly when it is positive. -/
theorem sgt_zero_ofNat (N : Nat) (hN : N < 2 ^ 31) :
    IntOp.cmpi .sgt (0#32 + BitVec.ofNat 32 N) 0#32 = if 0 < N then 1#1 else 0#1 := by
  have ht := toInt_ofNat_small N hN
  rw [BitVec.zero_add]
  show BitVec.ofBool (decide ((0#32).toInt < (BitVec.ofNat 32 N).toInt)) = _
  rw [ht, BitVec.toInt_zero]
  by_cases h : 0 < N
  · simp [h]
  · simp [h]

/-- Entry `(b', l)` of the reference's mask term: whether some patch of batch `b'` has the id `l`. -/
theorem refMask_apply (J : IVec S8x4096 32) (hJ : InRange J) (b' : Fin 8) (l : Fin 256) :
    refMask J (ix2 b' l) = maskOf J (ix2 b' l) := by
  have hb' : b'.val < 8 := b'.isLt
  have hl : l.val < 256 := l.isLt
  -- entry `(b', l)` of the mask reads cell `256 · b' + l` of the flat array
  have hc : 256 * b'.val + l.val < 2048 := by omega
  -- that cell ends at the number of rows whose flat segment number it is
  have hcell := scatter_ones_cell cellScatter (broadcastInDim S2048 ![] (by decide) (constantI S_ 32 0#32)) (refSeg J)
    (broadcastInDim S32768 ![] (by decide) (constantI S_ 32 1#32)) (fun _ => rfl) (ix1 ⟨256 * b'.val + l.val, hc⟩)
  generalize hN' : List.countP _ _ = N at hcell
  have hN := hN'.symm
  replace hcell : Host.scatter cellScatter IntOp.addi (broadcastInDim S2048 ![] (by decide) (constantI S_ 32 0#32)) (refSeg J)
      (broadcastInDim S32768 ![] (by decide) (constantI S_ 32 1#32)) (ix1 ⟨256 * b'.val + l.val, hc⟩)
      = 0#32 + BitVec.ofNat 32 N := hcell
  -- the count is at most the number of rows
  have hNle : N ≤ 32768 := by
    rw [hN]
    refine List.countP_le_length.trans ?_
    rw [List.length_finRange]
    exact (Shape.numel_rank1 _).le
  -- and positive exactly when some patch of the batch has the id
  have hNpos : 0 < N ↔ ∃ s : Fin 4096, J (ix2 b' s) = BitVec.ofNat 32 l.val := by
    rw [hN, List.countP_pos_iff]
    constructor
    · rintro ⟨n, -, hn⟩
      rw [decide_eq_true_eq, cellScatter_resultIdx] at hn
      obtain ⟨b, s, hbs⟩ := flatRow_surj ((S32768.rowMajor.symm n) 0)
      rw [hbs, refSeg_toInt J hJ b s] at hn
      obtain ⟨h0, h1⟩ := hJ (ix2 b s)
      have hn' : 256 * (b.val : Int) + (J (ix2 b s)).toInt = ((256 * b'.val + l.val : Nat) : Int) := hn
      have hbb : b = b' := Fin.ext (by omega)
      subst hbb
      refine ⟨s, ?_⟩
      apply BitVec.eq_of_toInt_eq
      rw [toInt_ofNat_small _ (by omega)]
      omega
    · rintro ⟨s, hs⟩
      refine ⟨S32768.rowMajor (ix1 (flatRow b' s)), List.mem_finRange _, ?_⟩
      rw [decide_eq_true_eq, Equiv.symm_apply_apply, cellScatter_resultIdx]
      show (refSeg J (ix2 (flatRow b' s) (0 : Fin 1))).toInt = ((256 * b'.val + l.val : Nat) : Int)
      rw [refSeg_toInt J hJ, hs, toInt_ofNat_small _ (by omega)]
      omega
  unfold refMask
  show IntOp.cmpi .sgt (shapeCast S8x256 _ _ (ix2 b' l)) 0#32 = _
  rw [shapeCast_apply _ _ (ix2 b' l) (ix1 ⟨256 * b'.val + l.val, hc⟩) (by
    rw [Shape.rowMajor_val_one, Shape.rowMajor_val_two]
    show 256 * b'.val + l.val = b'.val * 256 + l.val
    omega)]
  rw [hcell, sgt_zero_ofNat N (by omega)]
  unfold maskOf
  by_cases hex : ∃ s : Fin 4096, J (ix2 b' s) = BitVec.ofNat 32 l.val
  · rw [if_pos (hNpos.2 hex)]
    exact (if_pos hex).symm
  · rw [if_neg (fun h => hex (hNpos.1 h))]
    exact (if_neg hex).symm

/-- Where the ids are in range, the reference's host term for the mask says whether some patch of the batch has the id. -/
theorem refMask_eq (J : IVec S8x4096 32) (hJ : InRange J) : refMask J = maskOf J := by
  funext i0
  rw [eq_ix2 i0]
  exact refMask_apply J hJ (i0 0) (i0 1)

end Cert.Pool

end
-- ==== Proof.PreRange.lean ====
/-
  What the precondition says of the patch positions: every segment id lies in `[0, 256)`.

  The precondition is a conjunction of three all-reductions; the second and third compare, entry by entry, the segment ids with
  `0` (signed ≥) and with `256` (signed <). Its spelling of the ids differs from the specification's only in taking the sign of
  the divisor `4` after broadcasting it instead of before.
-/
import proofs.«425512_j57775900066507_3_alg».proof.Pre_finite_inputs
import proofs.«425512_j57775900066507_3_alg».proof.Proof.Gen.Pre_finite_inputs
import proofs.«425512_j57775900066507_3_alg».proof.Proof.Spec
import Idealize.ShloMosaic.Lib.ReduceAll
import Idealize.ShloMosaic.Lib.StableHlo.Predicate
import Idealize.ShloMosaic.Lib.ValueIdx

noncomputable section

namespace Cert.Pool

open Idealize.ShloMosaic Idealize.ShloMosaic.ValueIdx

/-- The scalar shape has one index. -/
private instance subsingleton_scalar_idx : Subsingleton S_.Idx := ⟨fun a b => funext fun d => d.elim0⟩

/-- The sign of a broadcast array is the broadcast of the sign: a pointwise operation commutes with re-indexing. -/
private theorem signi_broadcastInDim {w : Nat} {s t : Shape} (dims : Fin s.rank → Fin t.rank) (hb : s.BroadcastsInDim t dims)
    (v : IVec s w) : signi (broadcastInDim t dims hb v) = broadcastInDim t dims hb (signi v) := by
  funext i
  rfl

/-- The precondition's ids are the specification's segment ids: the precondition is its last part at `segIds p`. -/
private theorem pre_eq_part2 {F : FTy → Type} [FloatOps F] [Cert.Pre_finite_inputs.Facts]
    (x : FVec F S8x4096x1152 .f32) (p : IVec S8x4096x2 32) (q : IVec S8x256 1) :
    Cert.Pre_finite_inputs.fn (F := F) x p q = Cert.Pre_finite_inputs.fn_part2 (F := F) x (segIds p) := by
  simp only [Cert.Pre_finite_inputs.fn, Cert.Pre_finite_inputs.fn_part1, signi_broadcastInDim]
  rfl

/-- The last part of the precondition, at any ids `J`, holding says every id lies in `[0, 256)`. -/
private theorem inRange_of_part2 {F : FTy → Type} [FloatOps F] [Cert.Pre_finite_inputs.Facts]
    (x : FVec F S8x4096x1152 .f32) (J : IVec S8x4096 32)
    (h : Cert.Pre_finite_inputs.fn_part2 (F := F) x J = fun _ => 1#1) : InRange J := by
  have h0 := congrFun h ValueIdx.ix0
  dsimp only [Cert.Pre_finite_inputs.fn_part2, andi] at h0
  rw [IntOp.andi_eq_one, IntOp.andi_eq_one] at h0
  obtain ⟨⟨_, h2⟩, h3⟩ := h0
  intro i
  have a := Host.reduce_andi_all _ _ _ _ _ h2 i
  have b := Host.reduce_andi_all _ _ _ _ _ h3 i
  dsimp only [cmpi] at a b
  rw [IntOp.cmpi_sge] at a
  rw [IntOp.cmpi_slt] at b
  exact ⟨a, b⟩

/-- Under the precondition every patch's segment id lies in `[0, 256)`. -/
theorem inRange_of_pre {F : FTy → Type} [FloatOps F] [Cert.Pre_finite_inputs.Facts]
    (x : FVec F S8x4096x1152 .f32) (p : IVec S8x4096x2 32) (q : IVec S8x256 1)
    (h : Cert.Pre_finite_inputs.fn (F := F) x p q = fun _ => 1#1) : InRange (segIds p) := by
  rw [pre_eq_part2] at h
  exact inRange_of_part2 x (segIds p) h

end Cert.Pool

end
-- ==== Proof.lean ====
/-
  The certificate of the segment-pooling kernel against its reference.

  Both programs first give every patch `(b, s)` a segment id (Proof/Spec.lean `segIds`), the same 32-bit arithmetic in both.
  The kernel clamps the ids into `[0, 255]` and, batch by batch over two grid points, multiplies the 0/1 matrix "patch `s` has id
  `l`" with the hidden states, accumulating, and counts the ones of each row; it returns the accumulated product times the f32
  word of `√1152 / 16`, and whether each count is positive. The reference adds `256 · b` to the ids, scatter-adds the hidden rows
  (and ones) at those flat numbers into 2048 rows, divides by 16 and multiplies by the f32 word of `√1152`, and compares the
  integer counts with zero.

  The precondition says, besides finiteness, that every id lies in `[0, 256)`. There the clamp is the identity and the flat
  number `id + 256 · b` names the pair (batch, id) uniquely, so both pooled results are, entry by entry, the sum of the hidden
  rows of the batch's patches with that id, times one scale (the first f32 word is exactly the second over 16), and both masks
  say whether some patch of the batch has the id.
-/
import proofs.«425512_j57775900066507_3_alg».proof.Defs
import proofs.«425512_j57775900066507_3_alg».proof.Proof.Gen.Kernel
import proofs.«425512_j57775900066507_3_alg».proof.Proof.Gen.Kernel.Skeleton
import proofs.«425512_j57775900066507_3_alg».proof.Proof.Gen.Kernel.Launch
import proofs.«425512_j57775900066507_3_alg».proof.Proof.Gen.Kernel.Points
import proofs.«425512_j57775900066507_3_alg».proof.Proof.Gen.Kernel.Frame
import proofs.«425512_j57775900066507_3_alg».proof.Proof.Gen.KernelIdeal
import proofs.«425512_j57775900066507_3_alg».proof.Proof.Gen.KernelIdeal.Skeleton
import proofs.«425512_j57775900066507_3_alg».proof.Proof.Gen.KernelIdeal.Launch
import proofs.«425512_j57775900066507_3_alg».proof.Proof.Gen.KernelIdeal.Points
import proofs.«425512_j57775900066507_3_alg».proof.Proof.Gen.KernelIdeal.Frame
import proofs.«425512_j57775900066507_3_alg».proof.Proof.Gen.ReferenceIdeal
import proofs.«425512_j57775900066507_3_alg».proof.Proof.Gen.Pre_finite_inputs
import proofs.«425512_j57775900066507_3_alg».proof.Proof.KRun
import proofs.«425512_j57775900066507_3_alg».proof.Proof.RRun
import proofs.«425512_j57775900066507_3_alg».proof.Proof.RValue
import proofs.«425512_j57775900066507_3_alg».proof.Proof.RMask
import proofs.«425512_j57775900066507_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2) (Cert.ReferenceIdeal.PoolRun.run (F := Ideal) m ρ)

theorem preserves : Cert.preserves_Kernel_KernelIdeal := trivial

/-- Both programs end at the segment sums times the one scale, and at the one mask, of arguments that agree. -/
theorem algebraic : Cert.algebraic_KernelIdeal_ReferenceIdeal := by
  intro m ρ m' ρ' hpre hagree
  have hJ : ∀ c : Dev Cert.KernelIdeal.nD, Cert.Pool.InRange (Cert.Pool.segIds
      (m ((c.tc : Thread Cert.KernelIdeal.nD Cert.KernelIdeal.τ).loc Cert.KernelIdeal.main_arg1))) :=
    fun c => Cert.Pool.inRange_of_pre _ _ _ (hpre c)
  refine ⟨_, _, Cert.KernelIdeal.PoolRun.run m ρ hJ, ?_⟩
  refine (θ_run Cert.ReferenceIdeal.defs _ _).mono (fun _ h c => ⟨?_, ?_, (h c).2.2⟩)
    (Cert.ReferenceIdeal.PoolRun.run (F := Ideal) m' ρ')
  · rw [(h c).1, (hagree c).1, (hagree c).2.1, Cert.Pool.refPooled_eq _ _ (hJ c)]
    exact (Cert.Pool.pooledK_eq_pooledR _ _).symm
  · rw [(h c).2.1, (hagree c).2.1, Cert.Pool.refMask_eq _ (hJ c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
